-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000 : Shape := ⟨1, ![640000]⟩
abbrev S2x256 : Shape := ⟨2, ![2, 256]⟩
abbrev S2 : Shape := ⟨1, ![2]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S2x256 : S_.BroadcastsInDim S2x256 (![] : Fin 0 → Fin S2x256.rank)
  reducesTo_S2x256_S_d0_1 : S2x256.ReducesTo [0, 1] S_
  bcast_S_S2 : S_.BroadcastsInDim S2 (![] : Fin 0 → Fin S2.rank)
  reducesTo_S2_S_d0 : S2.ReducesTo [0] S_
  bcast_S_S640000 : S_.BroadcastsInDim S640000 (![] : Fin 0 → Fin S640000.rank)
  reducesTo_S640000_S_d0 : S640000.ReducesTo [0] S_

variable [Facts]

def fn_part1 {F : FTy → Type} [FloatOps F] (main_arg1 : IVec S640000 32) (main_arg2 : IVec S640000 32) (main_v13 : IVec S_ 1) (main_v15 : IVec S640000 1) (main_c_5 : IVec S_ 1) : IVec S_ 1 :=
  let main_v16 : IVec S_ 1 := (fun x v => Host.reduce IntOp.andi x v reducesTo_S640000_S_d0 h_S_) main_v15 main_c_5
  let main_v17 : IVec S_ 1 := andi main_v13 main_v16
  let main_c_6 : IVec S_ 32 := constantI S_ 32 10000#32
  let main_v18 : IVec S640000 32 := broadcastInDim S640000 ![] bcast_S_S640000 main_c_6
  let main_v19 : IVec S640000 1 := cmpi .slt main_arg1 main_v18
  let main_c_7 : IVec S_ 1 := constantI S_ 1 1#1
  let main_v20 : IVec S_ 1 := (fun x v => Host.reduce IntOp.andi x v reducesTo_S640000_S_d0 h_S_) main_v19 main_c_7
  let main_v21 : IVec S_ 1 := andi main_v17 main_v20
  let main_c_8 : IVec S_ 32 := constantI S_ 32 0#32
  let main_v22 : IVec S640000 32 := broadcastInDim S640000 ![] bcast_S_S640000 main_c_8
  let main_v23 : IVec S640000 1 := cmpi .sge main_arg2 main_v22
  let main_c_9 : IVec S_ 1 := constantI S_ 1 1#1
  let main_v24 : IVec S_ 1 := (fun x v => Host.reduce IntOp.andi x v reducesTo_S640000_S_d0 h_S_) main_v23 main_c_9
  let main_v25 : IVec S_ 1 := andi main_v21 main_v24
  let main_c_10 : IVec S_ 32 := constantI S_ 32 10000#32
  let main_v26 : IVec S640000 32 := broadcastInDim S640000 ![] bcast_S_S640000 main_c_10
  let main_v27 : IVec S640000 1 := cmpi .slt main_arg2 main_v26
  let main_c_11 : IVec S_ 1 := constantI S_ 1 1#1
  let main_v28 : IVec S_ 1 := (fun x v => Host.reduce IntOp.andi x v reducesTo_S640000_S_d0 h_S_) main_v27 main_c_11
  let main_v29 : IVec S_ 1 := andi main_v25 main_v28
  main_v29

def fn {F : FTy → Type} [FloatOps F] (main_arg0 : FVec F S10000x128 .f32) (main_arg1 : IVec S640000 32) (main_arg2 : IVec S640000 32) (main_arg3 : FVec F S2x256 .f32) (main_arg4 : FVec F S2 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S2x256 .f32 := Host.absf main_arg3
  let main_cst_0 : FVec F S_ .f32 := constant S_ .f32 0x7F800000#32
  let main_v5 : FVec F S2x256 .f32 := broadcastInDim S2x256 ![] bcast_S_S2x256 main_cst_0
  let main_v6 : IVec S2x256 1 := cmpf .olt main_v4 main_v5
  let main_c_1 : IVec S_ 1 := constantI S_ 1 1#1
  let main_v7 : IVec S_ 1 := (fun x v => Host.reduce IntOp.andi x v reducesTo_S2x256_S_d0_1 h_S_) main_v6 main_c_1
  let main_v8 : IVec S_ 1 := andi main_v3 main_v7
  let main_v9 : FVec F S2 .f32 := Host.absf main_arg4
  let main_cst_2 : FVec F S_ .f32 := constant S_ .f32 0x7F800000#32
  let main_v10 : FVec F S2 .f32 := broadcastInDim S2 ![] bcast_S_S2 main_cst_2
  let main_v11 : IVec S2 1 := cmpf .olt main_v9 main_v10
  let main_c_3 : IVec S_ 1 := constantI S_ 1 1#1
  let main_v12 : IVec S_ 1 := (fun x v => Host.reduce IntOp.andi x v reducesTo_S2_S_d0 h_S_) main_v11 main_c_3
  let main_v13 : IVec S_ 1 := andi main_v8 main_v12
  let main_c_4 : IVec S_ 32 := constantI S_ 32 0#32
  let main_v14 : IVec S640000 32 := broadcastInDim S640000 ![] bcast_S_S640000 main_c_4
  let main_v15 : IVec S640000 1 := cmpi .sge main_arg1 main_v14
  let main_c_5 : IVec S_ 1 := constantI S_ 1 1#1
  fn_part1 (F := F) main_arg1 main_arg2 main_v13 main_v15 main_c_5
-- ==== Kernel.lean ====
abbrev S10000x128 : Shape := ⟨2, ![10000, 128]⟩
abbrev S640000 : Shape := ⟨1, ![640000]⟩
abbrev S2x256 : Shape := ⟨2, ![2, 256]⟩
abbrev S2 : Shape := ⟨1, ![2]⟩
abbrev S2x128 : Shape := ⟨2, ![2, 128]⟩
abbrev S10000x2 : Shape := ⟨2, ![10000, 2]⟩
abbrev S128x2 : Shape := ⟨2, ![128, 2]⟩
abbrev S_ : Shape := ⟨0, ![]⟩
abbrev S10240x2 : Shape := ⟨2, ![10240, 2]⟩
abbrev S80x128x2 : Shape := ⟨3, ![80, 128, 2]⟩
abbrev S2x128x80 : Shape := ⟨3, ![2, 128, 80]⟩
abbrev S256x80 : Shape := ⟨2, ![256, 80]⟩
abbrev S1x640000 : Shape := ⟨2, ![1, 640000]⟩
abbrev S2x640000 : Shape := ⟨2, ![2, 640000]⟩
abbrev S1x1024 : Shape := ⟨2, ![1, 1024]⟩
abbrev S2x1024 : Shape := ⟨2, ![2, 1024]⟩
abbrev S80x1024 : Shape := ⟨2, ![80, 1024]⟩
abbrev S128x1024 : Shape := ⟨2, ![128, 1024]⟩
abbrev S256x1024 : Shape := ⟨2, ![256, 1024]⟩
abbrev S1024 : Shape := ⟨1, ![1024]⟩
abbrev S1 : Shape := ⟨1, ![1]⟩
abbrev S640000x2 : Shape := ⟨2, ![640000, 2]⟩

abbrev nBuf : Space → Nat
  | .hbm => 27
  | .vmem => 14
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S2x256, .f32⟩
  | .hbm, ⟨4, _⟩ => ⟨S2, .f32⟩
  | .hbm, ⟨5, _⟩ => ⟨S2x128, .f32⟩
  | .hbm, ⟨6, _⟩ => ⟨S2x128, .f32⟩
  | .hbm, ⟨7, _⟩ => ⟨S10000x2, .f32⟩
  | .hbm, ⟨8, _⟩ => ⟨S10000x2, .f32⟩
  | .hbm, ⟨9, _⟩ => ⟨S_, .i32⟩
  | .hbm, ⟨10, _⟩ => ⟨S_, .f32⟩
  | .hbm, ⟨11, _⟩ => ⟨S10240x2, .f32⟩
  | .hbm, ⟨12, _⟩ => ⟨S80x128x2, .f32⟩
  | .hbm, ⟨13, _⟩ => ⟨S2x128x80, .f32⟩
  | .hbm, ⟨14, _⟩ => ⟨S256x80, .f32⟩
  | .hbm, ⟨15, _⟩ => ⟨S256x80, .bf16⟩
  | .hbm, ⟨16, _⟩ => ⟨S_, .i32⟩
  | .hbm, ⟨17, _⟩ => ⟨S_, .f32⟩
  | .hbm, ⟨18, _⟩ => ⟨S10240x2, .f32⟩
  | .hbm, ⟨19, _⟩ => ⟨S80x128x2, .f32⟩
  | .hbm, ⟨20, _⟩ => ⟨S2x128x80, .f32⟩
  | .hbm, ⟨21, _⟩ => ⟨S256x80, .f32⟩
  | .hbm, ⟨22, _⟩ => ⟨S256x80, .bf16⟩
  | .hbm, ⟨23, _⟩ => ⟨S1x640000, .i32⟩
  | .hbm, ⟨24, _⟩ => ⟨S1x640000, .i32⟩
  | .hbm, ⟨25, _⟩ => ⟨S2x640000, .f32⟩
  | .hbm, ⟨26, _⟩ => ⟨S640000x2, .f32⟩
  | .local _ .vmem, ⟨0, _⟩ => ⟨S10000x128, .f32⟩
  | .local _ .vmem, ⟨1, _⟩ => ⟨S2x128, .f32⟩
  | .local _ .vmem, ⟨2, _⟩ => ⟨S2x128, .f32⟩
  | .local _ .vmem, ⟨3, _⟩ => ⟨S10000x2, .f32⟩
  | .local _ .vmem, ⟨4, _⟩ => ⟨S10000x2, .f32⟩
  | .local _ .vmem, ⟨5, _⟩ => ⟨S256x80, .bf16⟩
  | .local _ .vmem, ⟨6, _⟩ => ⟨S256x80, .bf16⟩
  | .local _ .vmem, ⟨7, _⟩ => ⟨S1x1024, .i32⟩
  | .local _ .vmem, ⟨8, _⟩ => ⟨S1x1024, .i32⟩
  | .local _ .vmem, ⟨9, _⟩ => ⟨S1x1024, .i32⟩
  | .local _ .vmem, ⟨10, _⟩ => ⟨S1x1024, .i32⟩
  | .local _ .vmem, ⟨11, _⟩ => ⟨S2, .f32⟩
  | .local _ .vmem, ⟨12, _⟩ => ⟨S2x1024, .f32⟩
  | .local _ .vmem, ⟨13, _⟩ => ⟨S2x1024, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10000x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10000x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![625], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S256x80 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x80 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x1024 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x256_S2x128_0_0 : S2x256.Slices ![0, 0] S2x128
  slices_S2x256_S2x128_0_128 : S2x256.Slices ![0, 128] S2x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S2x128_S2x128_0_0 : ∀ a, (![0, 0] : Fin 2 → Nat) a + S2x128.size a ≤ S2x128.size a
  h_S2x128 : 0 < S2x128.numel
  shapeCasts_S2x128_S2x128 : S2x128.ShapeCasts S2x128
  transposes_S2x128_p1_0_S128x2 : S2x128.Transposes [1, 0] S128x2
  inb_S10000x2_S10000x2_0_0 : ∀ a, (![0, 0] : Fin 2 → Nat) a + S10000x2.size a ≤ S10000x2.size a
  h_S10000x2 : 0 < S10000x2.numel
  pads_S10000x2_S10240x2_02400_000 : S10000x2.Pads (![0, 0] : Fin 2 → Nat) ![240, 0] ![0, 0] S10240x2
  h_S_ : 0 < S_.numel
  shapeCasts_S10240x2_S80x128x2 : S10240x2.ShapeCasts S80x128x2
  transposes_S80x128x2_S2x128x80_2_1_0 : S80x128x2.Transposes [2, 1, 0] S2x128x80
  shapeCasts_S2x128x80_S256x80 : S2x128x80.ShapeCasts S256x80
  shapeCasts_S640000_S1x640000 : S640000.ShapeCasts S1x640000
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  iota_S80x1024_d0_w32 : S80x1024.Iotas .tc 32 [0]
  broadcasts_S1x1024_S80x1024 : S1x1024.Broadcasts S80x1024
  natLt_1_32 : 1 < 32
  iota_S128x1024_d0_w32 : S128x1024.Iotas .tc 32 [0]
  broadcasts_S1x1024_S128x1024 : S1x1024.Broadcasts S128x1024
  inb_S256x80_S256x80_0_0 : ∀ a, (![0, 0] : Fin 2 → Nat) a + S256x80.size a ≤ S256x80.size a
  h_S256x80 : 0 < S256x80.numel
  shapeCasts_S256x80_S256x80 : S256x80.ShapeCasts S256x80
  slices_S256x1024_o0_0_S128x1024 : S256x1024.Slices ![0, 0] S128x1024
  reduces_S128x1024_S1024 : S128x1024.Reduces [0] S1024
  shapeCasts_S1024_S1x1024 : S1024.ShapeCasts S1x1024
  slices_S256x1024_o128_0_S128x1024 : S256x1024.Slices ![128, 0] S128x1024
  inb_S2_S1_0 : ∀ a, (![0] : Fin 1 → Nat) a + S1.size a ≤ S2.size a
  h_S1 : 0 < S1.numel
  inpos_S1_p0 : ∀ a, (![0] : Fin 1 → Nat) a < S1.size a
  inb_S2x1024_S1x1024_0_0 : ∀ a, (![0, 0] : Fin 2 → Nat) a + S1x1024.size a ≤ S2x1024.size a
  inb_S2_S1_1 : ∀ a, (![1] : Fin 1 → Nat) a + S1.size a ≤ S2.size a
  inb_S2x1024_S1x1024_1_0 : ∀ a, (![1, 0] : Fin 2 → Nat) a + S1x1024.size a ≤ S2x1024.size a
  transposes_S2x640000_S640000x2_1_0 : S2x640000.Transposes [1, 0] S640000x2
  dot_S10000x128_S128x2_S10000x2_1_0_0_1_n_n_wf : DotDims.WF S10000x128 S128x2 S10000x2 [1] [0] [0] [1] [] []
  dot_S256x80_S80x1024_S256x1024_1_0_0_1_n_n_wf : DotDims.WF S256x80 S80x1024 S256x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x128.size a ≤ S2x128.size a
  hwx0_1 : ∀ i : grid0.Coords, EltTy.bits .f32 = 32 ∨ (Rect.block (s := S2x128) S2x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x128.size a ≤ S2x128.size a
  hwx0_2 : ∀ i : grid0.Coords, EltTy.bits .f32 = 32 ∨ (Rect.block (s := S2x128) S2x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10000x2.size a ≤ S10000x2.size a
  hwx0_3 : ∀ i : grid0.Coords, EltTy.bits .f32 = 32 ∨ (Rect.block (s := S10000x2) S10000x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10000x2.size a ≤ S10000x2.size a
  hwx0_4 : ∀ i : grid0.Coords, EltTy.bits .f32 = 32 ∨ (Rect.block (s := S10000x2) S10000x2.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x80.size a ≤ S256x80.size a
  hwx1_0 : ∀ i : grid1.Coords, EltTy.bits .bf16 = 32 ∨ (Rect.block (s := S256x80) S256x80.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x80.size a ≤ S256x80.size a
  hwx1_1 : ∀ i : grid1.Coords, EltTy.bits .bf16 = 32 ∨ (Rect.block (s := S256x80) S256x80.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x640000.size a
  hwx1_2 : ∀ i : grid1.Coords, EltTy.bits .i32 = 32 ∨ (Rect.block (s := S1x640000) S1x1024.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x640000.size a
  hwx1_3 : ∀ i : grid1.Coords, EltTy.bits .i32 = 32 ∨ (Rect.block (s := S1x640000) S1x1024.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2.size a ≤ S2.size a
  hwx1_4 : ∀ i : grid1.Coords, EltTy.bits .f32 = 32 ∨ (Rect.block (s := S2) S2.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2x1024.size a ≤ S2x640000.size a
  hwx1_5 : ∀ i : grid1.Coords, EltTy.bits .f32 = 32 ∨ (Rect.block (s := S2x640000) S2x1024.size (cc1_transform_5 i) (hinb1_5 i)).WholeWords (EltTy.packing .f32)

variable [Facts₀]

def dot_S10000x128_S128x2_S10000x2_1_0_0_1_n_n : DotDims S10000x128 S128x2 S10000x2 where
  lhsContracting := [1]
  rhsContracting := [0]
  lhsNonContracting := [0]
  rhsNonContracting := [1]
  lhsBatch := []
  rhsBatch := []
  wf := dot_S10000x128_S128x2_S10000x2_1_0_0_1_n_n_wf
def dot_S256x80_S80x1024_S256x1024_1_0_0_1_n_n : DotDims S256x80 S80x1024 S256x1024 where
  lhsContracting := [1]
  rhsContracting := [0]
  lhsNonContracting := [0]
  rhsNonContracting := [1]
  lhsBatch := []
  rhsBatch := []
  wf := dot_S256x80_S80x1024_S256x1024_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S10000x2.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S10000x2.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v7) S256x80.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v12) S256x80.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S2x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S10000x128 : Shape := ⟨2, ![10000, 128]⟩
abbrev S640000 : Shape := ⟨1, ![640000]⟩
abbrev S2x256 : Shape := ⟨2, ![2, 256]⟩
abbrev S2 : Shape := ⟨1, ![2]⟩
abbrev S2x128 : Shape := ⟨2, ![2, 128]⟩
abbrev S_ : Shape := ⟨0, ![]⟩
abbrev S640000x1 : Shape := ⟨2, ![640000, 1]⟩
abbrev S640000x128 : Shape := ⟨2, ![640000, 128]⟩
abbrev S640000x2 : Shape := ⟨2, ![640000, 2]⟩
abbrev S1x2 : Shape := ⟨2, ![1, 2]⟩

abbrev nBuf : Space → Nat
  | .hbm => 31
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000, .i32⟩
  | .hbm, ⟨2, _⟩ => ⟨S640000, .i32⟩
  | .hbm, ⟨3, _⟩ => ⟨S2x256, .f32⟩
  | .hbm, ⟨4, _⟩ => ⟨S2, .f32⟩
  | .hbm, ⟨5, _⟩ => ⟨S2x128, .f32⟩
  | .hbm, ⟨6, _⟩ => ⟨S2x128, .f32⟩
  | .hbm, ⟨7, _⟩ => ⟨S_, .i32⟩
  | .hbm, ⟨8, _⟩ => ⟨S640000, .i32⟩
  | .hbm, ⟨9, _⟩ => ⟨S640000, .i1⟩
  | .hbm, ⟨10, _⟩ => ⟨S_, .i32⟩
  | .hbm, ⟨11, _⟩ => ⟨S640000, .i32⟩
  | .hbm, ⟨12, _⟩ => ⟨S640000, .i32⟩
  | .hbm, ⟨13, _⟩ => ⟨S640000, .i32⟩
  | .hbm, ⟨14, _⟩ => ⟨S640000x1, .i32⟩
  | .hbm, ⟨15, _⟩ => ⟨S640000x128, .f32⟩
  | .hbm, ⟨16, _⟩ => ⟨S_, .i32⟩
  | .hbm, ⟨17, _⟩ => ⟨S640000, .i32⟩
  | .hbm, ⟨18, _⟩ => ⟨S640000, .i1⟩
  | .hbm, ⟨19, _⟩ => ⟨S_, .i32⟩
  | .hbm, ⟨20, _⟩ => ⟨S640000, .i32⟩
  | .hbm, ⟨21, _⟩ => ⟨S640000, .i32⟩
  | .hbm, ⟨22, _⟩ => ⟨S640000, .i32⟩
  | .hbm, ⟨23, _⟩ => ⟨S640000x1, .i32⟩
  | .hbm, ⟨24, _⟩ => ⟨S640000x128, .f32⟩
  | .hbm, ⟨25, _⟩ => ⟨S640000x2, .f32⟩
  | .hbm, ⟨26, _⟩ => ⟨S640000x2, .f32⟩
  | .hbm, ⟨27, _⟩ => ⟨S640000x2, .f32⟩
  | .hbm, ⟨28, _⟩ => ⟨S1x2, .f32⟩
  | .hbm, ⟨29, _⟩ => ⟨S640000x2, .f32⟩
  | .hbm, ⟨30, _⟩ => ⟨S640000x2, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  slices_S2x256_S2x128_0_0 : S2x256.Slices ![0, 0] S2x128
  slices_S2x256_S2x128_0_128 : S2x256.Slices ![0, 128] S2x128
  bcast_S_S640000 : S_.BroadcastsInDim S640000 (![] : Fin 0 → Fin S640000.rank)
  bcast_S640000_S640000x1_0 : S640000.BroadcastsInDim S640000x1 (![0] : Fin 1 → Fin S640000x1.rank)
  bcast_S2_S1x2_1 : S2.BroadcastsInDim S1x2 (![1] : Fin 1 → Fin S1x2.rank)
  bcast_S1x2_S640000x2_0_1 : S1x2.BroadcastsInDim S640000x2 (![0, 1] : Fin 2 → Fin S640000x2.rank)
  gather_S10000x128_S640000x1_S640000x128_1_0_n_n_0_1_1128_wf : GatherDims.WF S10000x128 S640000x1 S640000x128 [1] [0] [] [0] [] 1 ![1, 128]
  dot_S640000x128_S2x128_S640000x2_1_1_0_0_n_n_wf : DotDims.WF S640000x128 S2x128 S640000x2 [1] [1] [0] [0] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S640000x128_S2x128_S640000x2_1_1_0_0_n_n : DotDims S640000x128 S2x128 S640000x2 where
  lhsContracting := [1]
  rhsContracting := [1]
  lhsNonContracting := [0]
  rhsNonContracting := [0]
  lhsBatch := []
  rhsBatch := []
  wf := dot_S640000x128_S2x128_S640000x2_1_1_0_0_n_n_wf

class Facts : Prop extends Facts₀ where

variable [Facts]
-- ==== Proof.PreRange.lean ====
/-
  The precondition's two index ranges.

  The precondition is a conjunction of seven bits: three say the float arguments are finite, four say
  `0 ≤ src e`, `src e < 10000`, `0 ≤ dst e`, `dst e < 10000` for every edge `e`, each as a reduction by `and`
  of a signed word comparison against a constant. A conjunction that is 1 has every conjunct 1; a reduction by
  `and` that is 1 met only 1s; a signed comparison that is 1 is the order of the signed readings. A 32-bit word
  whose signed reading lies in [0, 10000) reads the same unsigned, so its value is below 10000.
  Nothing here depends on how floats are read: the statements hold for every float interpretation.
-/
import proofs.«429145_j9869834846314_3_alg».proof.Pre_finite_inputs
import Idealize.ShloMosaic.Lib.ReduceAll
import Idealize.ShloMosaic.Lib.ValueIdx

namespace Cert.EdgeScore

open Idealize.ShloMosaic Idealize.ShloMosaic.ValueIdx

/-- The result of a full reduction has a single index. -/
instance : Subsingleton Cert.Pre_finite_inputs.S_.Idx := ⟨fun _ _ => funext fun d => d.elim0⟩

/-- A word that tests `≥ 0` and `< 10000` as a signed number has unsigned value below 10000. -/
theorem toNat_lt_of_signed_range {w : BitVec 32} (h0 : IntOp.cmpi .sge w 0#32 = 1#1)
    (h1 : IntOp.cmpi .slt w 10000#32 = 1#1) : w.toNat < 10000 := by
  have s0 : (0#32 : BitVec 32).toInt ≤ w.toInt := IntOp.cmpi_sge.1 h0
  have s1 : w.toInt < (10000#32 : BitVec 32).toInt := IntOp.cmpi_slt.1 h1
  rw [show (0#32 : BitVec 32).toInt = 0 from by decide] at s0
  rw [show (10000#32 : BitVec 32).toInt = 10000 from by decide] at s1
  rw [BitVec.toInt_eq_toNat_cond] at s0 s1
  have := w.isLt
  split at s0 <;> omega

/-- Both endpoints of every edge are node ids below 10000. -/
theorem src_dst_lt {F : FTy → Type} [FloatOps F] [Cert.Pre_finite_inputs.Facts]
    (x : FVec F Cert.Pre_finite_inputs.S10000x128 .f32) (src dst : IVec Cert.Pre_finite_inputs.S640000 32)
    (W : FVec F Cert.Pre_finite_inputs.S2x256 .f32) (b : FVec F Cert.Pre_finite_inputs.S2 .f32)
    (h : Cert.Pre_finite_inputs.fn (F := F) x src dst W b = fun _ => 1#1) (e : Cert.Pre_finite_inputs.S640000.Idx) :
    (src e).toNat < 10000 ∧ (dst e).toNat < 10000 := by
  have h0 := congrFun h ValueIdx.ix0
  dsimp only [Cert.Pre_finite_inputs.fn, Cert.Pre_finite_inputs.fn_part1] at h0
  -- the conjunction, split from its last conjunct back to the first of the four range tests
  obtain ⟨h1, hd1⟩ := IntOp.andi_eq_one.1 h0
  obtain ⟨h2, hd0⟩ := IntOp.andi_eq_one.1 h1
  obtain ⟨h3, hs1⟩ := IntOp.andi_eq_one.1 h2
  obtain ⟨-, hs0⟩ := IntOp.andi_eq_one.1 h3
  -- each reduction by `and`, read at the edge `e`
  exact ⟨toNat_lt_of_signed_range (Host.reduce_andi_all _ _ _ _ _ hs0 e) (Host.reduce_andi_all _ _ _ _ _ hs1 e),
    toNat_lt_of_signed_range (Host.reduce_andi_all _ _ _ _ _ hd0 e) (Host.reduce_andi_all _ _ _ _ _ hd1 e)⟩

theorem src_lt {F : FTy → Type} [FloatOps F] [Cert.Pre_finite_inputs.Facts]
    (x : FVec F Cert.Pre_finite_inputs.S10000x128 .f32) (src dst : IVec Cert.Pre_finite_inputs.S640000 32)
    (W : FVec F Cert.Pre_finite_inputs.S2x256 .f32) (b : FVec F Cert.Pre_finite_inputs.S2 .f32)
    (h : Cert.Pre_finite_inputs.fn (F := F) x src dst W b = fun _ => 1#1) (e : Cert.Pre_finite_inputs.S640000.Idx) :
    (src e).toNat < 10000 :=
  (src_dst_lt x src dst W b h e).1

theorem dst_lt {F : FTy → Type} [FloatOps F] [Cert.Pre_finite_inputs.Facts]
    (x : FVec F Cert.Pre_finite_inputs.S10000x128 .f32) (src dst : IVec Cert.Pre_finite_inputs.S640000 32)
    (W : FVec F Cert.Pre_finite_inputs.S2x256 .f32) (b : FVec F Cert.Pre_finite_inputs.S2 .f32)
    (h : Cert.Pre_finite_inputs.fn (F := F) x src dst W b = fun _ => 1#1) (e : Cert.Pre_finite_inputs.S640000.Idx) :
    (dst e).toNat < 10000 :=
  (src_dst_lt x src dst W b h e).2

end Cert.EdgeScore
-- ==== Proof.Spec.lean ====
/-
  The edge score as ONE function of the argument arrays.

  For an edge `e` with endpoints `u = src e`, `v = dst e` and an output class `o`, the score is
  `(∑ d, x[u, d] · W[o, d]) + (∑ d, x[v, d] · W[o, 128 + d]) + b[o]`:
  the linear layer `W` applied to the concatenation of the two endpoint rows of `x`, the product split at the
  column where the two rows meet. Both programs compute this on the extended reals whenever every endpoint is a
  node id below 10000; no law beyond reading each program's operations at an index is needed (in particular no
  finiteness: a one-hot sum has a single non-zero term, and zero times any extended real is zero).
-/
import Idealize.ShloMosaic.PureOps.Ideal
import Idealize.ShloMosaic.Lib.ValueIdx

noncomputable section

open scoped BigOperators

namespace Cert.EdgeScore

open Idealize.ShloMosaic Idealize.ShloMosaic.ValueIdx

abbrev SX : Shape := ⟨2, ![10000, 128]⟩
abbrev SE : Shape := ⟨1, ![640000]⟩
abbrev SW : Shape := ⟨2, ![2, 256]⟩
abbrev SB : Shape := ⟨1, ![2]⟩
abbrev SO : Shape := ⟨2, ![640000, 2]⟩

/-- A 32-bit word read as a node: its value modulo the node count (a word below 10000 is its own value). -/
def node (w : BitVec 32) : Fin 10000 := ⟨w.toNat % 10000, Nat.mod_lt _ (by norm_num)⟩

theorem node_of_lt {w : BitVec 32} (h : w.toNat < 10000) : node w = ⟨w.toNat, h⟩ :=
  Fin.ext (Nat.mod_eq_of_lt h)

/-- Row `n` of `x` against the first 128 columns of row `o` of `W`. -/
def projU (x : FVec Ideal SX .f32) (W : FVec Ideal SW .f32) (n : Fin 10000) (o : Fin 2) : EReal :=
  ∑ d : Fin 128, x (ix2 n d) * W (ix2 o (⟨d.val, by omega⟩ : Fin 256))

/-- Row `n` of `x` against the last 128 columns of row `o` of `W`. -/
def projV (x : FVec Ideal SX .f32) (W : FVec Ideal SW .f32) (n : Fin 10000) (o : Fin 2) : EReal :=
  ∑ d : Fin 128, x (ix2 n d) * W (ix2 o (⟨128 + d.val, by omega⟩ : Fin 256))

/-- The score of edge `e` for class `o`. -/
def scoreAt (x : FVec Ideal SX .f32) (src dst : IVec SE 32) (W : FVec Ideal SW .f32) (b : FVec Ideal SB .f32)
    (e : Fin 640000) (o : Fin 2) : EReal :=
  projU x W (node (src (ix1 e))) o + projV x W (node (dst (ix1 e))) o + b (ix1 o)

/-- All scores, as the result array. -/
def score (x : FVec Ideal SX .f32) (src dst : IVec SE 32) (W : FVec Ideal SW .f32) (b : FVec Ideal SB .f32) :
    FVec Ideal SO .f32 :=
  fun i => scoreAt x src dst W b (i 0) (i 1)

theorem score_apply (x : FVec Ideal SX .f32) (src dst : IVec SE 32) (W : FVec Ideal SW .f32) (b : FVec Ideal SB .f32)
    (e : Fin 640000) (o : Fin 2) : score x src dst W b (ix2 e o) = scoreAt x src dst W b e o := rfl

end Cert.EdgeScore

end
-- ==== Proof.RefValue.lean ====
/-
  The reference's result is the score function.

  The reference wraps each endpoint index as a negative index would be wrapped (a word below 10000 is not negative, so
  the wrap is the identity), gathers that row of `x` (the gather clamps the start row into `[0, 9999]`, which a word
  below 10000 already is), contracts the gathered rows with the two 128-column halves of `W`, and adds the bias
  broadcast along the edges. Read at edge `e` and class `o` this is
  `(∑ d, x[src e, d] · W[o, d]) + (∑ d, x[dst e, d] · W[o, 128 + d]) + b[o]`.
-/
import proofs.«429145_j9869834846314_3_alg».proof.Proof.Gen.ReferenceIdeal.Read
import proofs.«429145_j9869834846314_3_alg».proof.Proof.Spec
import Idealize.ShloMosaic.Lib.StableHlo.Predicate

noncomputable section

open scoped BigOperators

namespace Cert.ReferenceIdeal.RefValue

open Cert.ReferenceIdeal Cert.ReferenceIdeal.Gen Cert.ReferenceIdeal.Read Cert.EdgeScore Idealize.ShloMosaic Idealize.ShloMosaic.ValueIdx

/-- The row gather read at `(e, d)`: the operand's row at the start index `idx[e, 0]`, read signed and clamped into
    `[0, 9999]`, at column `d`. Axis 0 of the operand is collapsed and takes the clamped start; axis 1 is the one
    offset axis, of full extent, so its start is clamped to `0` and it takes the result's column. -/
theorem gather_row_apply (x : FVec Ideal S10000x128 .f32) (idx : IVec S640000x1 32) (e : Fin 640000) (d : Fin 128) :
    Host.gather gather_S10000x128_S640000x1_S640000x128_1_0_n_n_0_1_1128 x idx (ix2 e d)
      = x (ix2 (⟨min (idx (ix2 e 0)).toInt.toNat 9999, by omega⟩ : Fin 10000) d) := by
  unfold Host.gather
  congr 1
  funext a
  refine Fin.ext ?_
  match a with
  | ⟨0, _⟩ =>
    show GatherDims.start _ (ix2 e d) idx 0 + GatherDims.batchCoord _ (ix2 e d) 0 + GatherDims.offCoord _ (ix2 e d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S10000x128_S640000x1_S640000x128_1_0_n_n_0_1_1128.startIndexMap from
      List.mem_singleton.mpr rfl)]
    have hsi : gather_S10000x128_S640000x1_S640000x128_1_0_n_n_0_1_1128.siIdx (ix2 e d)
        ⟨List.idxOf (0 : Fin 2) gather_S10000x128_S640000x1_S640000x128_1_0_n_n_0_1_1128.startIndexMap,
          List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show GatherDims.start _ (ix2 e d) idx 1 + GatherDims.batchCoord _ (ix2 e d) 1 + GatherDims.offCoord _ (ix2 e d) 1 = _
    rw [GatherDims.batchCoord_eq_zero _ _ _ List.not_mem_nil]
    unfold GatherDims.start GatherDims.offCoord
    rw [dif_neg (show ¬ (1 : Fin 2) ∈ gather_S10000x128_S640000x1_S640000x128_1_0_n_n_0_1_1128.startIndexMap by decide),
      dif_pos (show (1 : Fin 2) ∈ gather_S10000x128_S640000x1_S640000x128_1_0_n_n_0_1_1128.sKept by decide)]
    simp only [Nat.add_zero, Nat.zero_add]
    rfl

/-- A word below 10000 is not negative, so the negative-index wrap leaves it alone. -/
theorem wrap_id (w : BitVec 32) (h : w.toNat < 10000) :
    Scalar.select (IntOp.cmpi .slt w 0#32) (IntOp.addi w 10000#32) w = w := by
  have hc : IntOp.cmpi .slt w 0#32 = 0#1 := eq_zero_of_ne_one fun h1 => by
    have h2 := (StableHlo.Predicate.slt_iff_toNat (a := w) (b := 0#32) (by omega) (by decide)).mp h1
    exact Nat.not_lt_zero _ h2
  rw [hc, select_zero]

/-- A word below 10000, read signed and clamped into `[0, 9999]`, is the node it names. -/
theorem row_of_lt (w : BitVec 32) (h : w.toNat < 10000) :
    (⟨min w.toInt.toNat 9999, by omega⟩ : Fin 10000) = node w := by
  rw [node_of_lt h]
  refine Fin.ext ?_
  show min w.toInt.toNat 9999 = w.toNat
  rw [StableHlo.Predicate.toInt_eq_toNat_of_lt (by omega), Int.toNat_natCast]
  omega

/-- The gather at a start index below 10000 reads that node's row. -/
theorem gather_row_node (x : FVec Ideal S10000x128 .f32) (idx : IVec S640000x1 32) (e : Fin 640000) (d : Fin 128)
    (h : (idx (ix2 e 0)).toNat < 10000) :
    Host.gather gather_S10000x128_S640000x1_S640000x128_1_0_n_n_0_1_1128 x idx (ix2 e d)
      = x (ix2 (node (idx (ix2 e 0))) d) := by
  rw [gather_row_apply, row_of_lt _ h]

/-- The wrapped, column-shaped source index of edge `e` is the source itself. -/
theorem wrapped_src (x1 : (⟨S640000, .i32⟩ : BufTy).Contents (Elt Ideal)) (hs : ∀ e, (x1 e).toNat < 10000) (e : Fin 640000) :
    val_main_v7 (F := Ideal) x1 (ix2 e 0) = x1 (ix1 e) := by
  have hi : idx_main_v7 (ix2 e (0 : Fin 1)) = ix1 e := funext fun a => Fin.ext (by match a with | ⟨0, _⟩ => rfl)
  rw [val_main_v7_apply, hi, val_main_v6_apply, val_main_v3_apply, val_main_v5_apply, val_main_v2_apply, val_main_v4_apply,
    val_main_c_apply, val_main_c_0_apply]
  exact wrap_id _ (hs _)

/-- The same for the destination. -/
theorem wrapped_dst (x2 : (⟨S640000, .i32⟩ : BufTy).Contents (Elt Ideal)) (hd : ∀ e, (x2 e).toNat < 10000) (e : Fin 640000) :
    val_main_v14 (F := Ideal) x2 (ix2 e 0) = x2 (ix1 e) := by
  have hi : idx_main_v14 (ix2 e (0 : Fin 1)) = ix1 e := funext fun a => Fin.ext (by match a with | ⟨0, _⟩ => rfl)
  rw [val_main_v14_apply, hi, val_main_v13_apply, val_main_v10_apply, val_main_v12_apply, val_main_v9_apply, val_main_v11_apply,
    val_main_c_1_apply, val_main_c_2_apply]
  exact wrap_id _ (hd _)

/-- The reference's result is the score: at edge `e` and class `o` the two contractions are the two halves of the
    linear layer on the endpoint rows, and the broadcast bias is `b[o]`. -/
theorem ref_is_score (x0 : (⟨S10000x128, .f32⟩ : BufTy).Contents (Elt Ideal))
    (x1 x2 : (⟨S640000, .i32⟩ : BufTy).Contents (Elt Ideal)) (x3 : (⟨S2x256, .f32⟩ : BufTy).Contents (Elt Ideal))
    (x4 : (⟨S2, .f32⟩ : BufTy).Contents (Elt Ideal))
    (hs : ∀ e, (x1 e).toNat < 10000) (hd : ∀ e, (x2 e).toNat < 10000) :
    val_main_v21 (F := Ideal) x0 x1 x2 x3 x4 = Cert.EdgeScore.score x0 x1 x2 x3 x4 := by
  funext i
  obtain ⟨e, o, rfl⟩ : ∃ (e : Fin 640000) (o : Fin 2), i = ix2 e o := ⟨i 0, i 1, eq_ix2 i⟩
  rw [val_main_v21_apply, val_main_v18_apply, val_main_v20_apply, val_main_v19_apply, val_main_v16_apply,
    val_main_v17_apply, score_apply]
  -- the first contraction: the source row against the first 128 columns of `W`
  have hU : (∑ k : Fin 128, val_main_v8 (F := Ideal) x0 x1 (lidx_main_v16 (ix2 e o) k)
      * val_main_v0 (F := Ideal) x3 (ridx_main_v16 (ix2 e o) k)) = projU x0 x3 (node (x1 (ix1 e))) o := by
    unfold projU
    refine Finset.sum_congr rfl fun k _ => ?_
    have hl : lidx_main_v16 (ix2 e o) k = ix2 e k :=
      funext fun a => Fin.ext (by match a with | ⟨0, _⟩ => rfl | ⟨1, _⟩ => rfl)
    have hr : idx_main_v0 (ridx_main_v16 (ix2 e o) k) = ix2 o (⟨k.val, by omega⟩ : Fin 256) :=
      funext fun a => Fin.ext (by match a with | ⟨0, _⟩ => rfl | ⟨1, _⟩ => rfl)
    rw [hl, val_main_v0_apply, hr]
    unfold val_main_v8
    rw [gather_row_node _ _ _ _ (by rw [wrapped_src x1 hs e]; exact hs _), wrapped_src x1 hs e]
  -- the second: the destination row against the last 128 columns
  have hV : (∑ k : Fin 128, val_main_v15 (F := Ideal) x0 x2 (lidx_main_v17 (ix2 e o) k)
      * val_main_v1 (F := Ideal) x3 (ridx_main_v17 (ix2 e o) k)) = projV x0 x3 (node (x2 (ix1 e))) o := by
    unfold projV
    refine Finset.sum_congr rfl fun k _ => ?_
    have hl : lidx_main_v17 (ix2 e o) k = ix2 e k :=
      funext fun a => Fin.ext (by match a with | ⟨0, _⟩ => rfl | ⟨1, _⟩ => rfl)
    have hr : idx_main_v1 (ridx_main_v17 (ix2 e o) k) = ix2 o (⟨128 + k.val, by omega⟩ : Fin 256) :=
      funext fun a => Fin.ext (by match a with | ⟨0, _⟩ => rfl | ⟨1, _⟩ => rfl)
    rw [hl, val_main_v1_apply, hr]
    unfold val_main_v15
    rw [gather_row_node _ _ _ _ (by rw [wrapped_dst x2 hd e]; exact hd _), wrapped_dst x2 hd e]
  -- the bias, broadcast along the edges
  have hb : idx_main_v19 (idx_main_v20 (ix2 e o)) = ix1 o :=
    funext fun a => Fin.ext (by match a with | ⟨0, _⟩ => rfl)
  rw [hU, hV, hb]
  rfl

end Cert.ReferenceIdeal.RefValue

end
-- ==== Proof.HostValue.lean ====
/-
  The host operations around the two calls, read as values.

  Between the calls each projected table `P : [10000, 2]` is packed into a slab `[256, 80]`: padded with zero rows to
  10240 rows, seen as `[80, 128, 2]`, its axes reversed to `[2, 128, 80]`, and flattened; so slab row `o·128 + lo`,
  column `hi` holds `P[hi·128 + lo, o]` whenever `hi·128 + lo` is a row of `P`. The index arrays reach the second call
  as their reshapes to one row, the bias as it is, and the result is the second call's output transposed.
-/
import proofs.«429145_j9869834846314_3_alg».proof.Proof.Gen.KernelIdeal.Frame
import Idealize.ShloMosaic.Lib.StableHlo.Run
import Idealize.ShloMosaic.Lib.Pipeline.Value
import Idealize.ShloMosaic.Lib.ValueIdx
import Idealize.ShloMosaic.Lib.KernelVsHost

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo Idealize.ShloMosaic.ValueIdx

variable {F : FTy → Type} [FloatOps F]

/-- A projected table packed as the second call's gather table. -/
def slab (P : FVec F S10000x2 .f32) : FVec F S256x80 .bf16 :=
  truncf .bf16 (shapeCast S256x80 (transpose S2x128x80 [2, 1, 0] (shapeCast S80x128x2
    (pad S10240x2 ![0, 0] ![240, 0] ![0, 0] P (sitofp .f32 (constantI S_ 32 0#32)) pads_S10000x2_S10240x2_02400_000 h_S_)
    shapeCasts_S10240x2_S80x128x2) transposes_S80x128x2_S2x128x80_2_1_0) shapeCasts_S2x128x80_S256x80) bitsLt_bf16_f32

/-- Slab row `o·128 + lo`, column `hi` is the table's row `hi·128 + lo`, column `o`, when that row exists. -/
theorem slab_apply (P : FVec Ideal S10000x2 .f32) (o : Fin 2) (lo : Fin 128) (hi : Fin 80) (h : hi.val * 128 + lo.val < 10000) :
    slab (F := Ideal) P (ix2 (⟨o.val * 128 + lo.val, by omega⟩ : Fin 256) hi) = P (ix2 (⟨hi.val * 128 + lo.val, h⟩ : Fin 10000) o) := by
  unfold slab
  refine (truncf_apply _ bitsLt_bf16_f32 _).trans ?_
  refine (shapeCast_apply _ shapeCasts_S2x128x80_S256x80 _ (ix3 o lo hi) ?_).trans ?_
  · rw [Shape.rowMajor_val_three, Shape.rowMajor_val_two]; rfl
  refine (transpose_apply [2, 1, 0] _ transposes_S80x128x2_S2x128x80_2_1_0 (ix3 o lo hi) (ix3 hi lo o) (fun b => ?_)).trans ?_
  · match b with
    | ⟨0, _⟩ => rfl
    | ⟨1, _⟩ => rfl
    | ⟨2, _⟩ => rfl
  refine (shapeCast_apply _ shapeCasts_S10240x2_S80x128x2 (ix3 hi lo o) (ix2 (⟨hi.val * 128 + lo.val, by omega⟩ : Fin 10240) o) ?_).trans ?_
  · rw [Shape.rowMajor_val_three, Shape.rowMajor_val_two]; rfl
  exact pad_apply_of_inside ![0, 0] ![240, 0] ![0, 0] P _ pads_S10000x2_S10240x2_02400_000 h_S_ _ (ix2 (⟨hi.val * 128 + lo.val, h⟩ : Fin 10000) o) (fun a => by
    match a with
    | ⟨0, _⟩ => show hi.val * 128 + lo.val = 0 + (hi.val * 128 + lo.val) * (0 + 1); omega
    | ⟨1, _⟩ => show o.val = 0 + o.val * (0 + 1); omega)

variable (m : (ℓ : Loc nD τ sig) → Buf (Elt F) ℓ) (ρ : Dev nD → PrngReg)

/-! ## Before the first call -/

theorem W1_arg0 (c : Dev nD) : W1 m ρ c (Proc.devRef .tc main_arg0) = m ((c : Thread nD τ).loc main_arg0) := by
  show StableHlo.after hostOps0 _ (Proc.devRef .tc main_arg0) = _
  after_results

theorem W1_v0 (c : Dev nD) : W1 m ρ c (Proc.devRef .tc main_v0)
    = extractStridedSlice S2x128 ![0, 0] (m ((c : Thread nD τ).loc main_arg3)) slices_S2x256_S2x128_0_0 := by
  show StableHlo.after hostOps0 _ (Proc.devRef .tc main_v0) = _
  after_results

theorem W1_v1 (c : Dev nD) : W1 m ρ c (Proc.devRef .tc main_v1)
    = extractStridedSlice S2x128 ![0, 128] (m ((c : Thread nD τ).loc main_arg3)) slices_S2x256_S2x128_0_128 := by
  show StableHlo.after hostOps0 _ (Proc.devRef .tc main_v1) = _
  after_results

/-! ## Between the calls -/

theorem W7_v7 (c : Dev nD) : W7 m ρ c (Proc.devRef .tc main_v7) = slab (W2 m ρ c (Proc.devRef .tc main_v2_0)) := by
  show StableHlo.after hostOps1_4 (StableHlo.after hostOps1_3 (StableHlo.after hostOps1_2 (StableHlo.after hostOps1_1 (StableHlo.after hostOps1 (W2 m ρ c))))) (Proc.devRef .tc main_v7) = _
  after_results; rfl

theorem W7_v12 (c : Dev nD) : W7 m ρ c (Proc.devRef .tc main_v12) = slab (W2 m ρ c (Proc.devRef .tc main_v2_1)) := by
  show StableHlo.after hostOps1_4 (StableHlo.after hostOps1_3 (StableHlo.after hostOps1_2 (StableHlo.after hostOps1_1 (StableHlo.after hostOps1 (W2 m ρ c))))) (Proc.devRef .tc main_v12) = _
  after_results; rfl

/-- The index arrays and the bias are written by nothing before the second call. -/
theorem W2_arg1 (c : Dev nD) : W2 m ρ c (Proc.devRef .tc main_arg1) = m ((c : Thread nD τ).loc main_arg1) :=
  (W2_of_ne m ρ c main_arg1 (by decide)).trans (by
    show StableHlo.after hostOps0 _ (Proc.devRef .tc main_arg1) = _
    after_results)

theorem W2_arg2 (c : Dev nD) : W2 m ρ c (Proc.devRef .tc main_arg2) = m ((c : Thread nD τ).loc main_arg2) :=
  (W2_of_ne m ρ c main_arg2 (by decide)).trans (by
    show StableHlo.after hostOps0 _ (Proc.devRef .tc main_arg2) = _
    after_results)

theorem W2_arg4 (c : Dev nD) : W2 m ρ c (Proc.devRef .tc main_arg4) = m ((c : Thread nD τ).loc main_arg4) :=
  (W2_of_ne m ρ c main_arg4 (by decide)).trans (by
    show StableHlo.after hostOps0 _ (Proc.devRef .tc main_arg4) = _
    after_results)

theorem W7_v13 (c : Dev nD) : W7 m ρ c (Proc.devRef .tc main_v13)
    = shapeCast S1x640000 (m ((c : Thread nD τ).loc main_arg1)) shapeCasts_S640000_S1x640000 := by
  show StableHlo.after hostOps1_4 (StableHlo.after hostOps1_3 (StableHlo.after hostOps1_2 (StableHlo.after hostOps1_1 (StableHlo.after hostOps1 (W2 m ρ c))))) (Proc.devRef .tc main_v13) = _
  after_results
  rw [W2_arg1 m ρ c]
  rfl

theorem W7_v14 (c : Dev nD) : W7 m ρ c (Proc.devRef .tc main_v14)
    = shapeCast S1x640000 (m ((c : Thread nD τ).loc main_arg2)) shapeCasts_S640000_S1x640000 := by
  show StableHlo.after hostOps1_4 (StableHlo.after hostOps1_3 (StableHlo.after hostOps1_2 (StableHlo.after hostOps1_1 (StableHlo.after hostOps1 (W2 m ρ c))))) (Proc.devRef .tc main_v14) = _
  after_results
  rw [W2_arg2 m ρ c]
  rfl

theorem W7_arg4 (c : Dev nD) : W7 m ρ c (Proc.devRef .tc main_arg4) = m ((c : Thread nD τ).loc main_arg4) := by
  show StableHlo.after hostOps1_4 (StableHlo.after hostOps1_3 (StableHlo.after hostOps1_2 (StableHlo.after hostOps1_1 (StableHlo.after hostOps1 (W2 m ρ c))))) (Proc.devRef .tc main_arg4) = _
  after_results
  exact W2_arg4 m ρ c

/-! ## After the second call -/

theorem W9_v16 (c : Dev nD) : W9 m ρ c (Proc.devRef .tc main_v16)
    = transpose S640000x2 [1, 0] (W8 m ρ c (Proc.devRef .tc main_v15)) transposes_S2x640000_S640000x2_1_0 := by
  show StableHlo.after hostOps2 _ (Proc.devRef .tc main_v16) = _
  after_results

end Cert.KernelIdeal.HostValue

end
-- ==== Proof.Region0Value.lean ====
/-
  The projection call's two output arrays after its one grid point.

  The grid has a single point and every window's block is its whole array, so what the point writes back is the body's
  stored value computed from the whole input arrays, and that one block covers the output array: the first output ends
  holding the product of `x` with the first half of `W`, the second the product with the second half.
-/
import proofs.«429145_j9869834846314_3_alg».proof.Proof.Gen.KernelIdeal.Frame
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Every window's block index is zero on both axes at the grid's point. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The block of `x` at the point is `x`. -/
theorem iblk_x (c : Dev nD) (t : Fin cfg0.N) : iblk0 V c 0 t = V c main_arg0 := by
  obtain ⟨e0, e1, -⟩ := idx_facts t
  funext j
  show V c main_arg0 (((cfg0.win 0).blk t).view.emb j) = V c main_arg0 j
  refine congrArg (V c main_arg0) ?_
  funext a; apply Fin.ext
  match a with
  | ⟨0, _⟩ => show win0_0.index t (0 : Fin 2) * 10000 + 1 * (j 0).val = (j 0).val; omega
  | ⟨1, _⟩ => show win0_0.index t (1 : Fin 2) * 128 + 1 * (j 1).val = (j 1).val; omega

/-- The block of the first half of `W` at the point is that half. -/
theorem iblk_wu (c : Dev nD) (t : Fin cfg0.N) : iblk0 V c 1 t = V c main_v0 := by
  obtain ⟨-, -, e0, e1, -⟩ := idx_facts t
  funext j
  show V c main_v0 (((cfg0.win 1).blk t).view.emb j) = V c main_v0 j
  refine congrArg (V c main_v0) ?_
  funext a; apply Fin.ext
  match a with
  | ⟨0, _⟩ => show win0_1.index t (0 : Fin 2) * 2 + 1 * (j 0).val = (j 0).val; omega
  | ⟨1, _⟩ => show win0_1.index t (1 : Fin 2) * 128 + 1 * (j 1).val = (j 1).val; omega

/-- The block of the second half of `W` at the point is that half. -/
theorem iblk_wv (c : Dev nD) (t : Fin cfg0.N) : iblk0 V c 2 t = V c main_v1 := by
  obtain ⟨-, -, -, -, e0, e1, -⟩ := idx_facts t
  funext j
  show V c main_v1 (((cfg0.win 2).blk t).view.emb j) = V c main_v1 j
  refine congrArg (V c main_v1) ?_
  funext a; apply Fin.ext
  match a with
  | ⟨0, _⟩ => show win0_2.index t (0 : Fin 2) * 2 + 1 * (j 0).val = (j 0).val; omega
  | ⟨1, _⟩ => show win0_2.index t (1 : Fin 2) * 128 + 1 * (j 1).val = (j 1).val; omega

/-- What the point writes back into the first output is the block of the product with the first half. -/
theorem flushed3_eq (c : Dev nD) (t : Fin cfg0.N) :
    (dat0 V c).flushed 3 t = ((cfg0.win 3).blk t).view.read (Elt F) (k0_pay2 (V c main_arg0) (V c main_v0)) := by
  show (cfg0.win 3).cut (grid0.coords t) ((dat0 V c).after 3 t) = _
  rw [after0_3]
  unfold out0_3
  rw [View.canon_unit_zero hz]
  simp only [View.ld_unit_zero (S := S10000x128) hz, View.ld_unit_zero (S := S2x128) hz]
  rw [iblk_x V c t, iblk_wu V c t]
  obtain ⟨-, -, -, -, -, -, e0, e1, -⟩ := idx_facts t
  funext j
  show k0_pay2 (V c main_arg0) (V c main_v0) j = k0_pay2 (V c main_arg0) (V c main_v0) (((cfg0.win 3).blk t).view.emb j)
  refine congrArg (k0_pay2 (V c main_arg0) (V c main_v0)) ?_
  funext a; apply Fin.ext
  match a with
  | ⟨0, _⟩ => show (j 0).val = win0_3.index t (0 : Fin 2) * 10000 + 1 * (j 0).val; omega
  | ⟨1, _⟩ => show (j 1).val = win0_3.index t (1 : Fin 2) * 2 + 1 * (j 1).val; omega

/-- The same for the second output and the second half. -/
theorem flushed4_eq (c : Dev nD) (t : Fin cfg0.N) :
    (dat0 V c).flushed 4 t = ((cfg0.win 4).blk t).view.read (Elt F) (k0_pay3 (V c main_arg0) (V c main_v1)) := by
  show (cfg0.win 4).cut (grid0.coords t) ((dat0 V c).after 4 t) = _
  rw [after0_4]
  unfold out0_4
  rw [View.canon_unit_zero hz]
  simp only [View.ld_unit_zero (S := S10000x128) hz, View.ld_unit_zero (S := S2x128) hz]
  rw [iblk_x V c t, iblk_wv V c t]
  obtain ⟨-, -, -, -, -, -, -, -, e0, e1⟩ := idx_facts t
  funext j
  show k0_pay3 (V c main_arg0) (V c main_v1) j = k0_pay3 (V c main_arg0) (V c main_v1) (((cfg0.win 4).blk t).view.emb j)
  refine congrArg (k0_pay3 (V c main_arg0) (V c main_v1)) ?_
  funext a; apply Fin.ext
  match a with
  | ⟨0, _⟩ => show (j 0).val = win0_4.index t (0 : Fin 2) * 10000 + 1 * (j 0).val; omega
  | ⟨1, _⟩ => show (j 1).val = win0_4.index t (1 : Fin 2) * 2 + 1 * (j 1).val; omega

/-- An index of an output array is in the point's block iff each coordinate is in the block's range. -/
theorem mem_blk3 (t : Fin cfg0.N) (i : S10000x2.Idx) :
    i ∈ ((cfg0.win 3).blk t).view.set ↔ ∀ a : Fin 2, win0_3.index t a * S10000x2.size a ≤ (i a).val ∧ (i a).val < win0_3.index t a * S10000x2.size a + S10000x2.size a := by
  show i ∈ ((View.whole main_v2_0).slice (win0_3.rect t)).set ↔ _
  rw [View.set_slice_whole, Rect.mem_set_unit]
  exact Iff.rfl

theorem mem_blk4 (t : Fin cfg0.N) (i : S10000x2.Idx) :
    i ∈ ((cfg0.win 4).blk t).view.set ↔ ∀ a : Fin 2, win0_4.index t a * S10000x2.size a ≤ (i a).val ∧ (i a).val < win0_4.index t a * S10000x2.size a + S10000x2.size a := by
  show i ∈ ((View.whole main_v2_1).slice (win0_4.rect t)).set ↔ _
  rw [View.set_slice_whole, Rect.mem_set_unit]
  exact Iff.rfl

/-- The first output array after the call. -/
theorem final3 (c : Dev nD) : (dat0 V c).arrAt 3 cfg0.N = k0_pay2 (V c main_arg0) (V c main_v0) :=
  (dat0 V c).arrAt_eq_of_cover 3 _ (fun t _ => flushed3_eq V c t) (fun i => by
    refine ⟨t0_0, flush0_3 t0_0, ?_⟩
    rw [mem_blk3]
    obtain ⟨-, -, -, -, -, -, e0, e1, -⟩ := idx_facts t0_0
    intro a
    match a with
    | ⟨0, _⟩ => show win0_3.index t0_0 (0 : Fin 2) * 10000 ≤ (i 0).val ∧ (i 0).val < win0_3.index t0_0 (0 : Fin 2) * 10000 + 10000; have := idx2_lt0 i; omega
    | ⟨1, _⟩ => show win0_3.index t0_0 (1 : Fin 2) * 2 ≤ (i 1).val ∧ (i 1).val < win0_3.index t0_0 (1 : Fin 2) * 2 + 2; have := idx2_lt1 i; omega)

/-- The second output array after the call. -/
theorem final4 (c : Dev nD) : (dat0 V c).arrAt 4 cfg0.N = k0_pay3 (V c main_arg0) (V c main_v1) :=
  (dat0 V c).arrAt_eq_of_cover 4 _ (fun t _ => flushed4_eq V c t) (fun i => by
    refine ⟨t0_0, flush0_4 t0_0, ?_⟩
    rw [mem_blk4]
    obtain ⟨-, -, -, -, -, -, -, -, e0, e1⟩ := idx_facts t0_0
    intro a
    match a with
    | ⟨0, _⟩ => show win0_4.index t0_0 (0 : Fin 2) * 10000 ≤ (i 0).val ∧ (i 0).val < win0_4.index t0_0 (0 : Fin 2) * 10000 + 10000; have := idx2_lt0 i; omega
    | ⟨1, _⟩ => show win0_4.index t0_0 (1 : Fin 2) * 2 ≤ (i 1).val ∧ (i 1).val < win0_4.index t0_0 (1 : Fin 2) * 2 + 2; have := idx2_lt1 i; omega)

end Cert.KernelIdeal.Region0

end
-- ==== Proof.Region1Spec.lean ====
/-
  The gather call's output array as ONE function of the arrays it finds.

  A node id `w` splits as `hi = w / 128`, `lo = w % 128`; the packed table holds the id's entry for class `o` at row
  `o·128 + lo`, column `hi`. Output element `(o, e)` is the first table's entry for the source id of edge `e`, plus the
  second table's entry for its destination id, plus the bias of class `o`.
-/
import proofs.«429145_j9869834846314_3_alg».proof.Proof.Gen.KernelIdeal.Frame
import Idealize.ShloMosaic.Lib.ValueIdx

noncomputable section

namespace Cert.KernelIdeal.Region1

open Cert.KernelIdeal Cert.KernelIdeal.Gen
open Idealize.ShloMosaic Idealize.ShloMosaic.ValueIdx

/-- The packed table's entry for class `o` and the node id `w` (the two coordinates reduced into the table's extents,
    which changes nothing for an id below 10000). -/
def pick (A : FVec Ideal S256x80 .bf16) (o : Fin 2) (w : BitVec 32) : EReal :=
  A (ix2 (⟨(o.val * 128 + w.toNat % 128) % 256, Nat.mod_lt _ (by norm_num)⟩ : Fin 256)
    (⟨(w.toNat / 128) % 80, Nat.mod_lt _ (by norm_num)⟩ : Fin 80))

/-- The output array `[2, 640000]` of the gather call. -/
def G1 (A0 A1 : FVec Ideal S256x80 .bf16) (S D : IVec S1x640000 32) (B : FVec Ideal S2 .f32) : FVec Ideal S2x640000 .f32 :=
  fun i => pick A0 (i 0) (S (ix2 (0 : Fin 1) (i 1))) + pick A1 (i 0) (D (ix2 (0 : Fin 1) (i 1))) + B (ix1 (i 0))

/-- What one grid point's body leaves at element `(o, j)` of its output block, in terms of its input blocks: the
    statement the body's arithmetic is proved against. -/
def PointValue : Prop :=
  ∀ (x0 x1 : Vec Ideal S256x80 .bf16) (x2 x3 : Vec Ideal S1x1024 .i32) (x4 : Vec Ideal S2 .f32) (o : Fin 2) (j : Fin 1024),
    (x2 (ix2 (0 : Fin 1) j)).toNat < 10000 → (x3 (ix2 (0 : Fin 1) j)).toNat < 10000 →
    out1_5 (F := Ideal) x0 x1 x2 x3 x4 (ix2 o j)
      = pick x0 o (x2 (ix2 (0 : Fin 1) j)) + pick x1 o (x3 (ix2 (0 : Fin 1) j)) + x4 (ix1 o)

end Cert.KernelIdeal.Region1

end
-- ==== Proof.ProjPoint.lean ====
/-
  The projection kernel's two results at an index.

  The kernel narrows the node features and one 2 × 128 block of the weight to bf16, transposes the block and
  multiplies: result[n, o] = ∑ d, x[n, d] · block[o, d]. On the extended reals narrowing is the identity, the
  product into a zero accumulator is the plain sum over the contraction index, and the transposed block at (d, o)
  is the block at (o, d); so each result is row `n` of `x` against row `o` of its block.
-/
import proofs.«429145_j9869834846314_3_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.ProjPoint

open Idealize.ShloMosaic Idealize.ShloMosaic.ValueIdx Cert.KernelIdeal Cert.KernelIdeal.Gen

/-! The operand indices of the product `[10000,128] × [128,2]` (left axis 1 contracted with right axis 0), one
    coordinate at a time: the left operand is read at (row of the result, contraction index), the right one at
    (contraction index, column of the result). -/

theorem lhs_axis0 (i : S10000x2.Idx) (q : dot_S10000x128_S128x2_S10000x2_1_0_0_1_n_n.contr.Idx) :
    (dot_S10000x128_S128x2_S10000x2_1_0_0_1_n_n.lhsIdx i q 0).val = (i 0).val := by
  unfold DotDims.lhsIdx
  rw [dif_neg (show ¬(0 : Fin S10000x128.rank) ∈ dot_S10000x128_S128x2_S10000x2_1_0_0_1_n_n.lhsBatch by decide), dif_pos (show (0 : Fin S10000x128.rank) ∈ dot_S10000x128_S128x2_S10000x2_1_0_0_1_n_n.lhsNonContracting by decide)]
  rfl
theorem lhs_axis1 (i : S10000x2.Idx) (q : dot_S10000x128_S128x2_S10000x2_1_0_0_1_n_n.contr.Idx) :
    (dot_S10000x128_S128x2_S10000x2_1_0_0_1_n_n.lhsIdx i q 1).val = (q ⟨0, by decide⟩).val :=
  dot_S10000x128_S128x2_S10000x2_1_0_0_1_n_n.lhsIdx_val_of_single rfl i q
theorem rhs_axis0 (i : S10000x2.Idx) (q : dot_S10000x128_S128x2_S10000x2_1_0_0_1_n_n.contr.Idx) :
    (dot_S10000x128_S128x2_S10000x2_1_0_0_1_n_n.rhsIdx i q 0).val = (q ⟨0, by decide⟩).val :=
  dot_S10000x128_S128x2_S10000x2_1_0_0_1_n_n.rhsIdx_val_of_single rfl i q
theorem rhs_axis1 (i : S10000x2.Idx) (q : dot_S10000x128_S128x2_S10000x2_1_0_0_1_n_n.contr.Idx) :
    (dot_S10000x128_S128x2_S10000x2_1_0_0_1_n_n.rhsIdx i q 1).val = (i 1).val := by
  unfold DotDims.rhsIdx
  rw [dif_neg (show ¬(1 : Fin S128x2.rank) ∈ dot_S10000x128_S128x2_S10000x2_1_0_0_1_n_n.rhsBatch by decide), dif_pos (show (1 : Fin S128x2.rank) ∈ dot_S10000x128_S128x2_S10000x2_1_0_0_1_n_n.rhsNonContracting by decide)]
  rfl

/-- The transposed weight block read at (d, o) is the block at (o, d). -/
theorem transpose_block_apply (w : FVec Ideal S2x128 .f32) (d : Fin 128) (o : Fin 2) :
    transpose S128x2 [1, 0] w transposes_S2x128_p1_0_S128x2 (ix2 d o) = w (ix2 o d) :=
  transpose_apply [1, 0] w transposes_S2x128_p1_0_S128x2 (ix2 d o) (ix2 o d) (fun b => by
    match b with
    | ⟨0, _⟩ => rfl
    | ⟨1, _⟩ => rfl)

/-- The product of the rows of `v0` with the transposed block `w`, into a zero accumulator, read at (n, o):
    row `n` of `v0` against row `o` of `w`. Narrowing to bf16 is the identity on the extended reals, and so is
    the cast of the block to its own shape. -/
theorem proj_apply (v0 : FVec Ideal S10000x128 .f32) (w : FVec Ideal S2x128 .f32) (n : Fin 10000) (o : Fin 2) :
    matmul dot_S10000x128_S128x2_S10000x2_1_0_0_1_n_n none (truncf .bf16 v0 bitsLt_bf16_f32)
      (transpose S128x2 [1, 0] (truncf .bf16 (shapeCast S2x128 w shapeCasts_S2x128_S2x128) bitsLt_bf16_f32)
        transposes_S2x128_p1_0_S128x2)
      (constant (F := Ideal) S10000x2 .f32 0x00000000#32) (ix2 n o) = ∑ d : Fin 128, v0 (ix2 n d) * w (ix2 o d) := by
  refine (Ideal.matmul_constant_zero_apply dot_S10000x128_S128x2_S10000x2_1_0_0_1_n_n none _ _ _).trans ?_
  rw [← Equiv.sum_comp (ValueIdx.contrEquiv1 dot_S10000x128_S128x2_S10000x2_1_0_0_1_n_n 128 rfl rfl).symm]
  refine Finset.sum_congr rfl fun k _ => ?_
  have hk := ValueIdx.contrEquiv1_symm_val dot_S10000x128_S128x2_S10000x2_1_0_0_1_n_n 128 rfl rfl k
  have el : dot_S10000x128_S128x2_S10000x2_1_0_0_1_n_n.lhsIdx (ix2 n o) ((ValueIdx.contrEquiv1 dot_S10000x128_S128x2_S10000x2_1_0_0_1_n_n 128 rfl rfl).symm k) = ix2 n k := funext fun a => Fin.ext (by
    match a with
    | ⟨0, _⟩ => exact lhs_axis0 _ _
    | ⟨1, _⟩ => exact (lhs_axis1 _ _).trans hk)
  have er : dot_S10000x128_S128x2_S10000x2_1_0_0_1_n_n.rhsIdx (ix2 n o) ((ValueIdx.contrEquiv1 dot_S10000x128_S128x2_S10000x2_1_0_0_1_n_n 128 rfl rfl).symm k) = ix2 k o := funext fun a => Fin.ext (by
    match a with
    | ⟨0, _⟩ => exact (rhs_axis0 _ _).trans hk
    | ⟨1, _⟩ => exact rhs_axis1 _ _)
  rw [el, er]
  show v0 (ix2 n k) * transpose S128x2 [1, 0] (shapeCast S2x128 w shapeCasts_S2x128_S2x128) transposes_S2x128_p1_0_S128x2 (ix2 k o) = _
  rw [shapeCast_self, transpose_block_apply]

theorem pay2_apply (v0 : Vec Ideal S10000x128 .f32) (v2 : Vec Ideal S2x128 .f32) (n : Fin 10000) (o : Fin 2) :
    k0_pay2 (F := Ideal) v0 v2 (ix2 n o) = ∑ d : Fin 128, v0 (ix2 n d) * v2 (ix2 o d) :=
  proj_apply v0 v2 n o

theorem pay3_apply (v0 : Vec Ideal S10000x128 .f32) (v5 : Vec Ideal S2x128 .f32) (n : Fin 10000) (o : Fin 2) :
    k0_pay3 (F := Ideal) v0 v5 (ix2 n o) = ∑ d : Fin 128, v0 (ix2 n d) * v5 (ix2 o d) :=
  proj_apply v0 v5 n o

end Cert.KernelIdeal.ProjPoint

end
-- ==== Proof.KernelValue.lean ====
/-
  The kernel's result array is the score function.

  The result is the gather call's output transposed. That output, element `(o, e)`, is the first packed table's entry for the
  source id of edge `e` plus the second's for its destination id plus the bias. A packed table's entry for an id `w` below
  10000 is the projected table's row `w` (`w = (w / 128)·128 + w % 128`), and the projected tables are the products of `x`
  with the two halves of `W`: the sum over the 128 features of `x[w, d] · W[o, d]`, resp. `x[w, d] · W[o, 128 + d]`.
-/
import proofs.«429145_j9869834846314_3_alg».proof.Proof.HostValue
import proofs.«429145_j9869834846314_3_alg».proof.Proof.Region0Value
import proofs.«429145_j9869834846314_3_alg».proof.Proof.Region1Spec
import proofs.«429145_j9869834846314_3_alg».proof.Proof.ProjPoint
import proofs.«429145_j9869834846314_3_alg».proof.Proof.Spec

set_option maxRecDepth 16384

noncomputable section

namespace Cert.KernelIdeal.KernelValue

open Cert.KernelIdeal Cert.KernelIdeal.Gen Cert.EdgeScore
open Idealize.ShloMosaic Idealize.ShloMosaic.TcCoe Idealize.SL.Sem Idealize.ShloMosaic.ValueIdx

/-- The packed table's entry for a node id below 10000 is the table's row of that id. -/
theorem pick_slab (P : FVec Ideal S10000x2 .f32) (o : Fin 2) (w : BitVec 32) (h : w.toNat < 10000) :
    Region1.pick (HostValue.slab (F := Ideal) P) o w = P (ix2 (⟨w.toNat, h⟩ : Fin 10000) o) := by
  unfold Region1.pick
  have e1 : (o.val * 128 + w.toNat % 128) % 256 = o.val * 128 + w.toNat % 128 := Nat.mod_eq_of_lt (by omega)
  have e2 : (w.toNat / 128) % 80 = w.toNat / 128 := Nat.mod_eq_of_lt (by omega)
  have hs := HostValue.slab_apply P o (⟨w.toNat % 128, Nat.mod_lt _ (by norm_num)⟩ : Fin 128) (⟨w.toNat / 128, by omega⟩ : Fin 80)
    (by show w.toNat / 128 * 128 + w.toNat % 128 < 10000; omega)
  refine Eq.trans (congrArg (HostValue.slab (F := Ideal) P) ?_) (hs.trans (congrArg P ?_))
  · funext a; apply Fin.ext
    match a with
    | ⟨0, _⟩ => exact e1
    | ⟨1, _⟩ => exact e2
  · funext a; apply Fin.ext
    match a with
    | ⟨0, _⟩ => show w.toNat / 128 * 128 + w.toNat % 128 = w.toNat; omega
    | ⟨1, _⟩ => rfl

variable (m : (ℓ : Loc nD τ sig) → Buf (Elt Ideal) ℓ) (ρ : Dev nD → PrngReg)

/-- The first packed table, from the launch memory. -/
theorem table_u (c : Dev nD) : V7 m ρ c main_v7
    = HostValue.slab (F := Ideal) (k0_pay2 (F := Ideal) (m ((c : Thread nD τ).loc main_arg0))
        (extractStridedSlice S2x128 ![0, 0] (m ((c : Thread nD τ).loc main_arg3)) slices_S2x256_S2x128_0_0)) := by
  refine (HostValue.W7_v7 m ρ c).trans (congrArg (HostValue.slab (F := Ideal)) ?_)
  refine (W2_arr m ρ c 3).trans ((Region0.final3 (V1 m ρ) c).trans ?_)
  rw [show V1 m ρ c main_arg0 = m ((c : Thread nD τ).loc main_arg0) from HostValue.W1_arg0 m ρ c,
    show V1 m ρ c main_v0 = _ from HostValue.W1_v0 m ρ c]

/-- The second packed table, from the launch memory. -/
theorem table_v (c : Dev nD) : V7 m ρ c main_v12
    = HostValue.slab (F := Ideal) (k0_pay3 (F := Ideal) (m ((c : Thread nD τ).loc main_arg0))
        (extractStridedSlice S2x128 ![0, 128] (m ((c : Thread nD τ).loc main_arg3)) slices_S2x256_S2x128_0_128)) := by
  refine (HostValue.W7_v12 m ρ c).trans (congrArg (HostValue.slab (F := Ideal)) ?_)
  refine (W2_arr m ρ c 4).trans ((Region0.final4 (V1 m ρ) c).trans ?_)
  rw [show V1 m ρ c main_arg0 = m ((c : Thread nD τ).loc main_arg0) from HostValue.W1_arg0 m ρ c,
    show V1 m ρ c main_v1 = _ from HostValue.W1_v1 m ρ c]

/-- The source ids as the gather call finds them: edge `e`'s is at `(0, e)`. -/
theorem ids_src (c : Dev nD) (e : Fin 640000) :
    V7 m ρ c main_v13 (ix2 (0 : Fin 1) e) = m ((c : Thread nD τ).loc main_arg1) (ix1 e) := by
  rw [show V7 m ρ c main_v13 = _ from HostValue.W7_v13 m ρ c]
  refine shapeCast_apply _ shapeCasts_S640000_S1x640000 _ (ix1 e) ?_
  rw [Shape.rowMajor_val_one, Shape.rowMajor_val_two]; show e.val = 0 * 640000 + e.val; omega

theorem ids_dst (c : Dev nD) (e : Fin 640000) :
    V7 m ρ c main_v14 (ix2 (0 : Fin 1) e) = m ((c : Thread nD τ).loc main_arg2) (ix1 e) := by
  rw [show V7 m ρ c main_v14 = _ from HostValue.W7_v14 m ρ c]
  refine shapeCast_apply _ shapeCasts_S640000_S1x640000 _ (ix1 e) ?_
  rw [Shape.rowMajor_val_one, Shape.rowMajor_val_two]; show e.val = 0 * 640000 + e.val; omega

/-- Every id the gather call finds is one of the launch ids, so the launch ranges hold of them. -/
theorem ids_src_lt (c : Dev nD) (hs : ∀ e, (m ((c : Thread nD τ).loc main_arg1) e).toNat < 10000) (k : S1x640000.Idx) :
    (V7 m ρ c main_v13 k).toNat < 10000 := by
  obtain ⟨z, e, rfl⟩ : ∃ (z : Fin 1) (e : Fin 640000), k = ix2 z e := ⟨k 0, k 1, eq_ix2 k⟩
  obtain rfl : z = 0 := Subsingleton.elim _ _
  rw [ids_src m ρ c e]; exact hs _

theorem ids_dst_lt (c : Dev nD) (hd : ∀ e, (m ((c : Thread nD τ).loc main_arg2) e).toNat < 10000) (k : S1x640000.Idx) :
    (V7 m ρ c main_v14 k).toNat < 10000 := by
  obtain ⟨z, e, rfl⟩ : ∃ (z : Fin 1) (e : Fin 640000), k = ix2 z e := ⟨k 0, k 1, eq_ix2 k⟩
  obtain rfl : z = 0 := Subsingleton.elim _ _
  rw [ids_dst m ρ c e]; exact hd _

/-- The first half of `W` read at `(o, d)`. -/
theorem half_u (W : FVec Ideal S2x256 .f32) (o : Fin 2) (d : Fin 128) :
    extractStridedSlice S2x128 ![0, 0] W slices_S2x256_S2x128_0_0 (ix2 o d) = W (ix2 o (⟨d.val, by omega⟩ : Fin 256)) :=
  extractStridedSlice_apply ![0, 0] W slices_S2x256_S2x128_0_0 (ix2 o d) (ix2 o (⟨d.val, by omega⟩ : Fin 256)) (fun a => by
    match a with
    | ⟨0, _⟩ => show o.val = 0 + o.val; omega
    | ⟨1, _⟩ => show d.val = 0 + d.val; omega)

/-- The second half of `W` read at `(o, d)`. -/
theorem half_v (W : FVec Ideal S2x256 .f32) (o : Fin 2) (d : Fin 128) :
    extractStridedSlice S2x128 ![0, 128] W slices_S2x256_S2x128_0_128 (ix2 o d) = W (ix2 o (⟨128 + d.val, by omega⟩ : Fin 256)) :=
  extractStridedSlice_apply ![0, 128] W slices_S2x256_S2x128_0_128 (ix2 o d) (ix2 o (⟨128 + d.val, by omega⟩ : Fin 256)) (fun a => by
    match a with
    | ⟨0, _⟩ => show o.val = 0 + o.val; omega
    | ⟨1, _⟩ => show 128 + d.val = 128 + d.val; rfl)

/-- THE RESULT: under the index ranges, the result array holds the scores. `hfinal` is the gather call's output array as
    its one function of the arrays it finds. -/
theorem result_eq (c : Dev nD)
    (hfinal : (dat1 (V7 m ρ) c).arrAt 5 cfg1.N
      = Region1.G1 (V7 m ρ c main_v7) (V7 m ρ c main_v12) (V7 m ρ c main_v13) (V7 m ρ c main_v14) (V7 m ρ c main_arg4))
    (hs : ∀ e, (m ((c : Thread nD τ).loc main_arg1) e).toNat < 10000)
    (hd : ∀ e, (m ((c : Thread nD τ).loc main_arg2) e).toNat < 10000) :
    W9 m ρ c (Proc.devRef .tc main_v16)
      = score (m ((c : Thread nD τ).loc main_arg0)) (m ((c : Thread nD τ).loc main_arg1)) (m ((c : Thread nD τ).loc main_arg2))
          (m ((c : Thread nD τ).loc main_arg3)) (m ((c : Thread nD τ).loc main_arg4)) := by
  funext i
  obtain ⟨e, o, rfl⟩ : ∃ (e : Fin 640000) (o : Fin 2), i = ix2 e o := ⟨i 0, i 1, eq_ix2 i⟩
  rw [HostValue.W9_v16 m ρ c]
  refine (transpose_apply [1, 0] _ transposes_S2x640000_S640000x2_1_0 (ix2 e o) (ix2 o e) (fun b => by
    match b with
    | ⟨0, _⟩ => rfl
    | ⟨1, _⟩ => rfl)).trans ?_
  rw [show W8 m ρ c (Proc.devRef .tc main_v15) = (dat1 (V7 m ρ) c).arrAt 5 cfg1.N from W8_arr m ρ c 5, hfinal]
  show Region1.pick (V7 m ρ c main_v7) o (V7 m ρ c main_v13 (ix2 (0 : Fin 1) e))
      + Region1.pick (V7 m ρ c main_v12) o (V7 m ρ c main_v14 (ix2 (0 : Fin 1) e)) + V7 m ρ c main_arg4 (ix1 o) = _
  rw [ids_src m ρ c e, ids_dst m ρ c e, table_u m ρ c, table_v m ρ c,
    show V7 m ρ c main_arg4 = m ((c : Thread nD τ).loc main_arg4) from HostValue.W7_arg4 m ρ c,
    pick_slab _ o _ (hs (ix1 e)), pick_slab _ o _ (hd (ix1 e)),
    ProjPoint.pay2_apply, ProjPoint.pay3_apply, score_apply]
  unfold scoreAt projU projV
  rw [node_of_lt (hs (ix1 e)), node_of_lt (hd (ix1 e))]
  simp only [half_u, half_v]

end Cert.KernelIdeal.KernelValue

end
-- ==== Proof.Region1Value.lean ====
/-
  The gather call's output array after its 625 grid points.

  Point `t` of the grid sees the two packed tables and the bias whole, columns `t·1024 … t·1024 + 1023` of the two
  id arrays, and writes columns `t·1024 … t·1024 + 1023` of the output. Given what one point's body leaves at an
  element of its output block in terms of its input blocks, what the point writes back is the same columns of the
  closed-form array; the 625 blocks of 1024 columns cover all 640000 columns, so the array ends holding the closed
  form everywhere.
-/
import proofs.«429145_j9869834846314_3_alg».proof.Proof.Region1Spec
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The grid has 625 points. -/
theorem point_lt (t : Fin cfg1.N) : t.val < 625 := lt_of_lt_of_eq t.isLt N_1

/-- Column `j` of point `t`'s block is a column of the whole array. -/
theorem col_lt (t : Fin cfg1.N) (j : Fin 1024) : t.val * 1024 + j.val < 640000 := by
  have := point_lt t; have := j.isLt; omega

/-- The windows' block indices at point `t`: the two tables and the bias sit at block 0; the two id arrays and the
    output move along their second axis with the point. -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val
    ∧ win1_4.index t (0 : Fin 1) = 0
    ∧ win1_5.index t (0 : Fin 2) = 0 ∧ win1_5.index t (1 : Fin 2) = t.val :=
  (by decide +kernel : ∀ t : Fin grid1.N, _)

/-- The block of the first table at every point is the table. -/
theorem iblk_tab0 (c : Dev nD) (t : Fin cfg1.N) : iblk1 V c 0 t = V c main_v7 := by
  obtain ⟨e0, e1, -⟩ := idx_facts t
  funext j
  show V c main_v7 (((cfg1.win 0).blk t).view.emb j) = V c main_v7 j
  refine congrArg (V c main_v7) ?_
  funext a; apply Fin.ext
  match a with
  | ⟨0, _⟩ => show win1_0.index t (0 : Fin 2) * 256 + 1 * (j 0).val = (j 0).val; omega
  | ⟨1, _⟩ => show win1_0.index t (1 : Fin 2) * 80 + 1 * (j 1).val = (j 1).val; omega

/-- The block of the second table at every point is the table. -/
theorem iblk_tab1 (c : Dev nD) (t : Fin cfg1.N) : iblk1 V c 1 t = V c main_v12 := by
  obtain ⟨-, -, e0, e1, -⟩ := idx_facts t
  funext j
  show V c main_v12 (((cfg1.win 1).blk t).view.emb j) = V c main_v12 j
  refine congrArg (V c main_v12) ?_
  funext a; apply Fin.ext
  match a with
  | ⟨0, _⟩ => show win1_1.index t (0 : Fin 2) * 256 + 1 * (j 0).val = (j 0).val; omega
  | ⟨1, _⟩ => show win1_1.index t (1 : Fin 2) * 80 + 1 * (j 1).val = (j 1).val; omega

/-- The block of the bias at every point is the bias. -/
theorem iblk_bias (c : Dev nD) (t : Fin cfg1.N) : iblk1 V c 4 t = V c main_arg4 := by
  obtain ⟨-, -, -, -, -, -, -, -, e0, -⟩ := idx_facts t
  funext j
  show V c main_arg4 (((cfg1.win 4).blk t).view.emb j) = V c main_arg4 j
  refine congrArg (V c main_arg4) ?_
  funext a; apply Fin.ext
  match a with
  | ⟨0, _⟩ => show win1_4.index t (0 : Fin 1) * 2 + 1 * (j 0).val = (j 0).val; omega

/-- Column `j` of the source ids' block at point `t` is column `t·1024 + j` of the source ids. -/
theorem iblk_src (c : Dev nD) (t : Fin cfg1.N) (j : Fin 1024) :
    iblk1 V c 2 t (ix2 (0 : Fin 1) j) = V c main_v13 (ix2 (0 : Fin 1) (⟨t.val * 1024 + j.val, col_lt t j⟩ : Fin 640000)) := by
  obtain ⟨-, -, -, -, e0, e1, -⟩ := idx_facts t
  show V c main_v13 (((cfg1.win 2).blk t).view.emb (ix2 (0 : Fin 1) j)) = _
  refine congrArg (V c main_v13) ?_
  funext a; apply Fin.ext
  match a with
  | ⟨0, _⟩ => show win1_2.index t (0 : Fin 2) * 1 + 1 * (0 : Fin 1).val = (0 : Fin 1).val; omega
  | ⟨1, _⟩ => show win1_2.index t (1 : Fin 2) * 1024 + 1 * j.val = t.val * 1024 + j.val; omega

/-- The same for the destination ids. -/
theorem iblk_dst (c : Dev nD) (t : Fin cfg1.N) (j : Fin 1024) :
    iblk1 V c 3 t (ix2 (0 : Fin 1) j) = V c main_v14 (ix2 (0 : Fin 1) (⟨t.val * 1024 + j.val, col_lt t j⟩ : Fin 640000)) := by
  obtain ⟨-, -, -, -, -, -, e0, e1, -⟩ := idx_facts t
  show V c main_v14 (((cfg1.win 3).blk t).view.emb (ix2 (0 : Fin 1) j)) = _
  refine congrArg (V c main_v14) ?_
  funext a; apply Fin.ext
  match a with
  | ⟨0, _⟩ => show win1_3.index t (0 : Fin 2) * 1 + 1 * (0 : Fin 1).val = (0 : Fin 1).val; omega
  | ⟨1, _⟩ => show win1_3.index t (1 : Fin 2) * 1024 + 1 * j.val = t.val * 1024 + j.val; omega

/-- Element `(o, j)` of the output block at point `t` is element `(o, t·1024 + j)` of the output array. -/
theorem emb_out (t : Fin cfg1.N) (o : Fin 2) (j : Fin 1024) :
    ((cfg1.win 5).blk t).view.emb (ix2 o j) = ix2 o (⟨t.val * 1024 + j.val, col_lt t j⟩ : Fin 640000) := by
  obtain ⟨-, -, -, -, -, -, -, -, -, e0, e1⟩ := idx_facts t
  funext a; apply Fin.ext
  match a with
  | ⟨0, _⟩ => show win1_5.index t (0 : Fin 2) * 2 + 1 * o.val = o.val; omega
  | ⟨1, _⟩ => show win1_5.index t (1 : Fin 2) * 1024 + 1 * j.val = t.val * 1024 + j.val; omega

/-- What point `t` writes back is block `t` of the closed form. -/
theorem flushed5_eq (hp : PointValue) (c : Dev nD) (hs : ∀ k, (V c main_v13 k).toNat < 10000)
    (hd : ∀ k, (V c main_v14 k).toNat < 10000) (t : Fin cfg1.N) :
    (dat1 V c).flushed 5 t = ((cfg1.win 5).blk t).view.read (Elt Ideal)
      (G1 (V c main_v7) (V c main_v12) (V c main_v13) (V c main_v14) (V c main_arg4)) := by
  show (cfg1.win 5).cut (grid1.coords t) ((dat1 V c).after 5 t) = _
  rw [after1_5]
  funext y
  obtain ⟨o, j, rfl⟩ : ∃ (o : Fin 2) (j : Fin 1024), y = ix2 o j := ⟨y 0, y 1, eq_ix2 y⟩
  show out1_5 (iblk1 V c 0 t) (iblk1 V c 1 t) (iblk1 V c 2 t) (iblk1 V c 3 t) (iblk1 V c 4 t) (ix2 o j)
    = G1 (V c main_v7) (V c main_v12) (V c main_v13) (V c main_v14) (V c main_arg4) (((cfg1.win 5).blk t).view.emb (ix2 o j))
  rw [emb_out t o j]
  refine (hp (iblk1 V c 0 t) (iblk1 V c 1 t) (iblk1 V c 2 t) (iblk1 V c 3 t) (iblk1 V c 4 t) o j ?_ ?_).trans ?_
  · rw [iblk_src V c t j]; exact hs _
  · rw [iblk_dst V c t j]; exact hd _
  · rw [iblk_tab0 V c t, iblk_tab1 V c t, iblk_bias V c t, iblk_src V c t j, iblk_dst V c t j]
    rfl

/-- An index of the output array is in point `t`'s block iff each coordinate is in the block's range. -/
theorem mem_blk5 (t : Fin cfg1.N) (i : S2x640000.Idx) :
    i ∈ ((cfg1.win 5).blk t).view.set ↔ ∀ a : Fin 2, win1_5.index t a * S2x1024.size a ≤ (i a).val ∧ (i a).val < win1_5.index t a * S2x1024.size a + S2x1024.size a := by
  show i ∈ ((View.whole main_v15).slice (win1_5.rect t)).set ↔ _
  rw [View.set_slice_whole, Rect.mem_set_unit]
  exact Iff.rfl

/-- The point whose block holds column `e` of the output: `e / 1024`. -/
def pointOf (e : Fin 640000) : Fin cfg1.N :=
  ⟨e.val / 1024, lt_of_lt_of_eq (by have := e.isLt; omega : e.val / 1024 < 625) N_1.symm⟩

/-- The output array after the call: the blocks of the 625 points cover it, column `e` lying in the block of
    point `e / 1024`. -/
theorem final5 (hp : PointValue) (c : Dev nD) (hs : ∀ k, (V c main_v13 k).toNat < 10000)
    (hd : ∀ k, (V c main_v14 k).toNat < 10000) :
    (dat1 V c).arrAt 5 cfg1.N = G1 (V c main_v7) (V c main_v12) (V c main_v13) (V c main_v14) (V c main_arg4) :=
  (dat1 V c).arrAt_eq_of_cover 5 _ (fun t _ => flushed5_eq V hp c hs hd t) (fun i => by
    have hi0 : (i 0).val < 2 := idx2_lt0 i
    have hi1 : (i 1).val < 640000 := idx2_lt1 i
    obtain ⟨-, -, -, -, -, -, -, -, -, e0, e1⟩ := idx_facts (pointOf ⟨(i 1).val, hi1⟩)
    have e2 : (pointOf ⟨(i 1).val, hi1⟩).val = (i 1).val / 1024 := rfl
    refine ⟨pointOf ⟨(i 1).val, hi1⟩, flush1_5 _, ?_⟩
    rw [mem_blk5]
    intro a
    match a with
    | ⟨0, _⟩ =>
      show win1_5.index (pointOf ⟨(i 1).val, hi1⟩) (0 : Fin 2) * 2 ≤ (i 0).val
        ∧ (i 0).val < win1_5.index (pointOf ⟨(i 1).val, hi1⟩) (0 : Fin 2) * 2 + 2
      omega
    | ⟨1, _⟩ =>
      show win1_5.index (pointOf ⟨(i 1).val, hi1⟩) (1 : Fin 2) * 1024 ≤ (i 1).val
        ∧ (i 1).val < win1_5.index (pointOf ⟨(i 1).val, hi1⟩) (1 : Fin 2) * 1024 + 1024
      omega)

end Cert.KernelIdeal.Region1

end
-- ==== Proof.GatherPoint.lean ====
/-
  The gather-and-combine body read at ONE output element, on the extended reals.

  For lane `j` of an edge block let `w` be the 32-bit index word of that lane. The body splits it as
  `hi = w >> 7` (arithmetic) and `lo = w & 127`, builds the one-hot columns `[hi = h]` (h < 80) and `[lo = l]` (l < 128) as
  floats 1 / 0, multiplies the [256,80] slab by the high one-hot (a matrix product into a zero accumulator), and sums
  the rows `c·128 … c·128+127` of the product against the low one-hot. When `w` is a node id below 10000 we have
  `0 ≤ hi = w / 128 < 80` and `lo = w % 128`, each one-hot sum has a single non-zero term, and since zero times ANY
  extended real is zero no finiteness is needed: the value is the slab at row `c·128 + w % 128`, column `w / 128`.
  The output element (o, j) is that value for the source word and the first slab, plus the same for the destination
  word and the second slab, plus the bias entry `o`.

  Order of the file: the words (shift, mask, compare) at one lane; a flag as a float; a one-hot sum; the two one-hot
  blocks at an index; the matrix product at an index (operand indices axis by axis, then the contraction re-indexed
  through its one coordinate); slices, the column sum and the four gathered values; the two row stores read back.
-/
import proofs.«429145_j9869834846314_3_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.StableHlo.Predicate

noncomputable section

open scoped BigOperators

namespace Cert.KernelIdeal.GatherPoint

open Cert.KernelIdeal Cert.KernelIdeal.Gen Idealize.ShloMosaic Idealize.ShloMosaic.ValueIdx

open Idealize.ShloMosaic.StableHlo.Predicate (cmpi_eq_iff)

/-! The words at one lane. -/

/-- A word below 10000 is non-negative, so its arithmetic shift right by seven is the quotient by 128. -/
theorem shr7_toNat (w : BitVec 32) (hw : w.toNat < 10000) :
    (IntOp.shrsi .vector w 7#32).toNat = w.toNat / 128 := by
  have hm : w.msb = false := by
    rw [BitVec.msb_eq_false_iff_two_mul_lt]; omega
  unfold IntOp.shrsi
  rw [if_pos (by decide)]
  show (w.sshiftRight 7).toNat = _
  rw [BitVec.sshiftRight_eq_of_msb_false hm, BitVec.toNat_ushiftRight, Nat.shiftRight_eq_div_pow]

/-- Masking with 127 keeps the remainder modulo 128. -/
theorem and127_toNat (w : BitVec 32) :
    (IntOp.andi w 127#32).toNat = w.toNat % 128 := by
  unfold IntOp.andi
  rw [BitVec.toNat_and]
  exact Nat.and_two_pow_sub_one_eq_mod w.toNat 7

/-- The high compare is set exactly when the quotient is `h`. -/
theorem hi_flag (w : BitVec 32) (hw : w.toNat < 10000) (h : Fin 80) :
    IntOp.cmpi .eq (IntOp.shrsi .vector w 7#32) (BitVec.ofNat 32 h.val) = 1#1 ↔ w.toNat / 128 = h.val := by
  rw [cmpi_eq_iff, ← BitVec.toNat_inj, shr7_toNat w hw, BitVec.toNat_ofNat]
  have := h.isLt
  rw [Nat.mod_eq_of_lt (a := h.val) (b := 2 ^ 32) (by omega)]

/-- The low compare is set exactly when the remainder is `l`. -/
theorem lo_flag (w : BitVec 32) (l : Fin 128) :
    IntOp.cmpi .eq (IntOp.andi w 127#32) (BitVec.ofNat 32 l.val) = 1#1 ↔ w.toNat % 128 = l.val := by
  rw [cmpi_eq_iff, ← BitVec.toNat_inj, and127_toNat w, BitVec.toNat_ofNat]
  have := l.isLt
  rw [Nat.mod_eq_of_lt (a := l.val) (b := 2 ^ 32) (by omega)]

/-- A one-bit flag widened to 32 bits and converted to a float is 1 or 0. -/
theorem flag_float (b : BitVec 1) :
    (FloatOps.sitofp (F := Ideal) .f32 (b.setWidth 32) : EReal) = if b = 1#1 then 1 else 0 := by
  rcases BitVec.eq_zero_or_eq_one b with h | h <;> subst h
  · show (((BitVec.setWidth 32 0#1).toInt : ℝ) : EReal) = _
    simp
  · show (((BitVec.setWidth 32 1#1).toInt : ℝ) : EReal) = _
    simp

/-- A sum against a one-hot row keeps the one term the row selects: zero times any extended real is zero. -/
theorem sum_onehot {n : Nat} (f : Fin n → EReal) (m : Nat) (hm : m < n) :
    ∑ k : Fin n, f k * (if m = k.val then (1 : EReal) else 0) = f ⟨m, hm⟩ := by
  rw [Finset.sum_eq_single (⟨m, hm⟩ : Fin n)]
  · rw [if_pos rfl, mul_one]
  · intro k _ hk
    rw [if_neg (fun h => hk (Fin.ext h.symm)), mul_zero]
  · intro h; exact absurd (Finset.mem_univ _) h

/-- The low one-hot block at row `l`, lane `j`: 1 when the word's low seven bits are `l`, else 0. -/
theorem onehot_lo_apply (v : IVec S1x1024 32) (l : Fin 128) (j : Fin 1024) :
    (sitofp (F := Ideal) .f32 (extui 32 (cmpi .eq (broadcastTo S128x1024 (andi (shapeCast S1x1024 v shapeCasts_S1x1024_S1x1024) (broadcast S1x1024 127#32)) broadcasts_S1x1024_S128x1024)
        (iota .tc S128x1024 32 [0] iota_S128x1024_d0_w32)) natLt_1_32) : FVec Ideal S128x1024 .f32) (ix2 l j)
      = if (v (ix2 (0 : Fin 1) j)).toNat % 128 = l.val then (1 : EReal) else 0 := by
  rw [shapeCast_self]
  show FloatOps.sitofp (F := Ideal) .f32 ((IntOp.cmpi .eq (broadcastTo S128x1024 (andi v (broadcast S1x1024 127#32)) broadcasts_S1x1024_S128x1024 (ix2 l j))
      (iota .tc S128x1024 32 [0] iota_S128x1024_d0_w32 (ix2 l j))).setWidth 32) = _
  rw [flag_float, broadcastTo_apply _ _ (ix2 l j) (ix2 (0 : Fin 1) j) (fun a => by
    match a with
    | ⟨0, _⟩ => rfl
    | ⟨1, _⟩ => rfl), iota_single_apply]
  show (if IntOp.cmpi .eq (IntOp.andi (v (ix2 (0 : Fin 1) j)) 127#32) (BitVec.ofNat 32 l.val) = 1#1 then (1 : EReal) else 0) = _
  simp only [lo_flag]

theorem pay5_apply (v0 : Vec Ideal S1x1024 .i32) (l : Fin 128) (j : Fin 1024) :
    k1_pay5 (F := Ideal) v0 (ix2 l j) = if (v0 (ix2 (0 : Fin 1) j)).toNat % 128 = l.val then (1 : EReal) else 0 :=
  onehot_lo_apply v0 l j

theorem pay6_apply (v2 : Vec Ideal S1x1024 .i32) (l : Fin 128) (j : Fin 1024) :
    k1_pay6 (F := Ideal) v2 (ix2 l j) = if (v2 (ix2 (0 : Fin 1) j)).toNat % 128 = l.val then (1 : EReal) else 0 :=
  onehot_lo_apply v2 l j

/-! The matrix product's operand indices at result index `i` and contraction index `q`, axis by axis. -/

theorem lhs_m1_0 (i : S256x1024.Idx) (q : dot_S256x80_S80x1024_S256x1024_1_0_0_1_n_n.contr.Idx) :
    (dot_S256x80_S80x1024_S256x1024_1_0_0_1_n_n.lhsIdx i q 0).val = (i 0).val := by
  unfold DotDims.lhsIdx
  rw [dif_neg (show ¬(0 : Fin S256x80.rank) ∈ dot_S256x80_S80x1024_S256x1024_1_0_0_1_n_n.lhsBatch by decide), dif_pos (show (0 : Fin S256x80.rank) ∈ dot_S256x80_S80x1024_S256x1024_1_0_0_1_n_n.lhsNonContracting by decide)]
  rfl
theorem lhs_m1_1 (i : S256x1024.Idx) (q : dot_S256x80_S80x1024_S256x1024_1_0_0_1_n_n.contr.Idx) :
    (dot_S256x80_S80x1024_S256x1024_1_0_0_1_n_n.lhsIdx i q 1).val = (q ⟨0, by decide⟩).val :=
  dot_S256x80_S80x1024_S256x1024_1_0_0_1_n_n.lhsIdx_val_of_single rfl i q
theorem rhs_m1_0 (i : S256x1024.Idx) (q : dot_S256x80_S80x1024_S256x1024_1_0_0_1_n_n.contr.Idx) :
    (dot_S256x80_S80x1024_S256x1024_1_0_0_1_n_n.rhsIdx i q 0).val = (q ⟨0, by decide⟩).val :=
  dot_S256x80_S80x1024_S256x1024_1_0_0_1_n_n.rhsIdx_val_of_single rfl i q
theorem rhs_m1_1 (i : S256x1024.Idx) (q : dot_S256x80_S80x1024_S256x1024_1_0_0_1_n_n.contr.Idx) :
    (dot_S256x80_S80x1024_S256x1024_1_0_0_1_n_n.rhsIdx i q 1).val = (i 1).val := by
  unfold DotDims.rhsIdx
  rw [dif_neg (show ¬(1 : Fin S80x1024.rank) ∈ dot_S256x80_S80x1024_S256x1024_1_0_0_1_n_n.rhsBatch by decide), dif_pos (show (1 : Fin S80x1024.rank) ∈ dot_S256x80_S80x1024_S256x1024_1_0_0_1_n_n.rhsNonContracting by decide)]
  rfl

/-- The [256,80] × [80,1024] product into a zero accumulator, at (r, j): the sum over the 80 contracted positions. -/
theorem matmul_read (A : FVec Ideal S256x80 .bf16) (B : FVec Ideal S80x1024 .bf16) (r : Fin 256) (j : Fin 1024) :
    matmul dot_S256x80_S80x1024_S256x1024_1_0_0_1_n_n none A B (constant (F := Ideal) S256x1024 .f32 0x00000000#32) (ix2 r j)
      = ∑ k : Fin 80, A (ix2 r k) * B (ix2 k j) := by
  refine (Ideal.matmul_constant_zero_apply dot_S256x80_S80x1024_S256x1024_1_0_0_1_n_n none A B (ix2 r j)).trans ?_
  rw [← Equiv.sum_comp (contrEquiv1 dot_S256x80_S80x1024_S256x1024_1_0_0_1_n_n 80 rfl rfl).symm]
  refine Finset.sum_congr rfl fun k _ => ?_
  have hk := contrEquiv1_symm_val dot_S256x80_S80x1024_S256x1024_1_0_0_1_n_n 80 rfl rfl k
  have el : dot_S256x80_S80x1024_S256x1024_1_0_0_1_n_n.lhsIdx (ix2 r j) ((contrEquiv1 dot_S256x80_S80x1024_S256x1024_1_0_0_1_n_n 80 rfl rfl).symm k) = ix2 r k := funext fun a => Fin.ext (by
    match a with
    | ⟨0, _⟩ => exact lhs_m1_0 _ _
    | ⟨1, _⟩ => exact (lhs_m1_1 _ _).trans hk)
  have er : dot_S256x80_S80x1024_S256x1024_1_0_0_1_n_n.rhsIdx (ix2 r j) ((contrEquiv1 dot_S256x80_S80x1024_S256x1024_1_0_0_1_n_n 80 rfl rfl).symm k) = ix2 k j := funext fun a => Fin.ext (by
    match a with
    | ⟨0, _⟩ => exact (rhs_m1_0 _ _).trans hk
    | ⟨1, _⟩ => exact rhs_m1_1 _ _)
  rw [el, er]

/-- The high one-hot block at row `h`, lane `j`: 1 when the word shifted right by seven is `h`, else 0. -/
theorem onehot_hi_apply (v : IVec S1x1024 32) (h : Fin 80) (j : Fin 1024) (hw : (v (ix2 (0 : Fin 1) j)).toNat < 10000) :
    (truncf .bf16 (sitofp (F := Ideal) .f32 (extui 32 (cmpi .eq (broadcastTo S80x1024 (shrsi (shapeCast S1x1024 v shapeCasts_S1x1024_S1x1024) (broadcast S1x1024 7#32)) broadcasts_S1x1024_S80x1024)
        (iota .tc S80x1024 32 [0] iota_S80x1024_d0_w32)) natLt_1_32)) bitsLt_bf16_f32 : FVec Ideal S80x1024 .bf16) (ix2 h j)
      = if (v (ix2 (0 : Fin 1) j)).toNat / 128 = h.val then (1 : EReal) else 0 := by
  rw [shapeCast_self]
  show FloatOps.sitofp (F := Ideal) .f32 ((IntOp.cmpi .eq (broadcastTo S80x1024 (shrsi v (broadcast S1x1024 7#32)) broadcasts_S1x1024_S80x1024 (ix2 h j))
      (iota .tc S80x1024 32 [0] iota_S80x1024_d0_w32 (ix2 h j))).setWidth 32) = _
  rw [flag_float, broadcastTo_apply _ _ (ix2 h j) (ix2 (0 : Fin 1) j) (fun a => by
    match a with
    | ⟨0, _⟩ => rfl
    | ⟨1, _⟩ => rfl), iota_single_apply]
  show (if IntOp.cmpi .eq (IntOp.shrsi .vector (v (ix2 (0 : Fin 1) j)) 7#32) (BitVec.ofNat 32 h.val) = 1#1 then (1 : EReal) else 0) = _
  simp only [hi_flag _ hw]

/-- The slab times the high one-hot, at (r, j): the slab's row `r` at the column the word selects. -/
theorem m1_apply (v : IVec S1x1024 32) (A : FVec Ideal S256x80 .bf16) (r : Fin 256) (j : Fin 1024) (hw : (v (ix2 (0 : Fin 1) j)).toNat < 10000) :
    (matmul dot_S256x80_S80x1024_S256x1024_1_0_0_1_n_n none (shapeCast S256x80 A shapeCasts_S256x80_S256x80)
        (truncf .bf16 (sitofp (F := Ideal) .f32 (extui 32 (cmpi .eq (broadcastTo S80x1024 (shrsi (shapeCast S1x1024 v shapeCasts_S1x1024_S1x1024) (broadcast S1x1024 7#32)) broadcasts_S1x1024_S80x1024)
          (iota .tc S80x1024 32 [0] iota_S80x1024_d0_w32)) natLt_1_32)) bitsLt_bf16_f32)
        (constant (F := Ideal) S256x1024 .f32 0x00000000#32) : FVec Ideal S256x1024 .f32) (ix2 r j)
      = A (ix2 r (⟨(v (ix2 (0 : Fin 1) j)).toNat / 128, by omega⟩ : Fin 80)) := by
  refine (matmul_read _ _ r j).trans ?_
  rw [shapeCast_self]
  simp only [onehot_hi_apply v _ j hw]
  exact sum_onehot (fun k => A (ix2 r k)) _ _

theorem pay7_apply (v0 : Vec Ideal S1x1024 .i32) (v32 : Vec Ideal S256x80 .bf16) (r : Fin 256) (j : Fin 1024)
    (hw : (v0 (ix2 (0 : Fin 1) j)).toNat < 10000) :
    k1_pay7 (F := Ideal) v0 v32 (ix2 r j) = v32 (ix2 r (⟨(v0 (ix2 (0 : Fin 1) j)).toNat / 128, by omega⟩ : Fin 80)) :=
  m1_apply v0 v32 r j hw

theorem pay8_apply (v2 : Vec Ideal S1x1024 .i32) (v35 : Vec Ideal S256x80 .bf16) (r : Fin 256) (j : Fin 1024)
    (hw : (v2 (ix2 (0 : Fin 1) j)).toNat < 10000) :
    k1_pay8 (F := Ideal) v2 v35 (ix2 r j) = v35 (ix2 r (⟨(v2 (ix2 (0 : Fin 1) j)).toNat / 128, by omega⟩ : Fin 80)) :=
  m1_apply v2 v35 r j hw

/-! Slices, the column sum, and the four gathered values. -/

/-- The first 128 rows of a [256,1024] block. -/
theorem slice0_apply (M : FVec Ideal S256x1024 .f32) (l : Fin 128) (j : Fin 1024) :
    extractStridedSlice S128x1024 ![0, 0] M slices_S256x1024_o0_0_S128x1024 (ix2 l j) = M (ix2 (⟨0 * 128 + l.val, by omega⟩ : Fin 256) j) :=
  extractStridedSlice_apply ![0, 0] M slices_S256x1024_o0_0_S128x1024 (ix2 l j) (ix2 (⟨0 * 128 + l.val, by omega⟩ : Fin 256) j) (fun a => by
    match a with
    | ⟨0, _⟩ => show 0 * 128 + l.val = 0 + l.val; omega
    | ⟨1, _⟩ => show j.val = 0 + j.val; omega)

/-- The last 128 rows of a [256,1024] block. -/
theorem slice1_apply (M : FVec Ideal S256x1024 .f32) (l : Fin 128) (j : Fin 1024) :
    extractStridedSlice S128x1024 ![128, 0] M slices_S256x1024_o128_0_S128x1024 (ix2 l j) = M (ix2 (⟨1 * 128 + l.val, by omega⟩ : Fin 256) j) :=
  extractStridedSlice_apply ![128, 0] M slices_S256x1024_o128_0_S128x1024 (ix2 l j) (ix2 (⟨1 * 128 + l.val, by omega⟩ : Fin 256) j) (fun a => by
    match a with
    | ⟨0, _⟩ => show 1 * 128 + l.val = 128 + l.val; omega
    | ⟨1, _⟩ => show j.val = 0 + j.val; omega)

/-- The sum over the 128 rows of a [128,1024] block, kept as a [1,1024] row, at lane `j`. -/
theorem colsum_apply (X : FVec Ideal S128x1024 .f32) (j : Fin 1024) :
    (shapeCast S1x1024 (multiReduction (F := Ideal) .add [0] S1024 X 0x00000000#32 reduces_S128x1024_S1024 (.inl rfl) rfl) shapeCasts_S1024_S1x1024 : FVec Ideal S1x1024 .f32) (ix2 (0 : Fin 1) j)
      = ∑ l : Fin 128, X (ix2 l j) := by
  refine (shapeCast_addUnit_apply ![1024] _ shapeCasts_S1024_S1x1024 (ix2 (0 : Fin 1) j)).trans ?_
  refine (Ideal.multiReduction_add_single X _ reduces_S128x1024_S1024 (.inl rfl) rfl _).trans ?_
  refine Finset.sum_congr rfl fun l _ => congrArg X (funext fun a => Fin.ext ?_)
  match a with
  | ⟨0, _⟩ => rfl
  | ⟨1, _⟩ => rfl

/-- A product block whose left factor reads the slab at the column the word selects and whose right factor is the low
    one-hot sums, over its 128 rows, to the slab at the row and column the word selects. -/
theorem gather_sum (c : Nat) (hc : c < 2) (A : Vec Ideal S256x80 .bf16) (w : BitVec 32) (hw : w.toNat < 10000)
    (T : Fin 128 → EReal)
    (hT : ∀ l : Fin 128, T l = A (ix2 (⟨c * 128 + l.val, by omega⟩ : Fin 256) (⟨w.toNat / 128, by omega⟩ : Fin 80))
        * (if w.toNat % 128 = l.val then (1 : EReal) else 0)) :
    ∑ l : Fin 128, T l = A (ix2 (⟨c * 128 + w.toNat % 128, by omega⟩ : Fin 256) (⟨w.toNat / 128, by omega⟩ : Fin 80)) := by
  simp only [hT]
  exact sum_onehot (fun l : Fin 128 => A (ix2 (⟨c * 128 + l.val, by omega⟩ : Fin 256) (⟨w.toNat / 128, by omega⟩ : Fin 80)))
    (w.toNat % 128) (Nat.mod_lt _ (by norm_num))

theorem pay9_apply (v0 : Vec Ideal S1x1024 .i32) (v32 : Vec Ideal S256x80 .bf16) (j : Fin 1024)
    (hw : (v0 (ix2 (0 : Fin 1) j)).toNat < 10000) :
    k1_pay9 (F := Ideal) v0 v32 (ix2 (0 : Fin 1) j)
      = v32 (ix2 (⟨0 * 128 + (v0 (ix2 (0 : Fin 1) j)).toNat % 128, by omega⟩ : Fin 256) (⟨(v0 (ix2 (0 : Fin 1) j)).toNat / 128, by omega⟩ : Fin 80)) := by
  refine (colsum_apply _ j).trans ?_
  refine gather_sum 0 (by norm_num) v32 _ hw _ fun l => ?_
  rw [mulf_apply, slice0_apply, pay7_apply v0 v32 _ j hw, pay5_apply]

theorem pay10_sum (v0 : Vec Ideal S1x1024 .i32) (v32 : Vec Ideal S256x80 .bf16) (j : Fin 1024)
    (hw : (v0 (ix2 (0 : Fin 1) j)).toNat < 10000) :
    ∑ l : Fin 128, k1_pay10 (F := Ideal) v0 v32 (ix2 l j)
      = v32 (ix2 (⟨1 * 128 + (v0 (ix2 (0 : Fin 1) j)).toNat % 128, by omega⟩ : Fin 256) (⟨(v0 (ix2 (0 : Fin 1) j)).toNat / 128, by omega⟩ : Fin 80)) := by
  refine gather_sum 1 (by norm_num) v32 _ hw _ fun l => ?_
  show mulf (extractStridedSlice S128x1024 ![128, 0] (k1_pay7 (F := Ideal) v0 v32) slices_S256x1024_o128_0_S128x1024) (k1_pay5 (F := Ideal) v0) (ix2 l j) = _
  rw [mulf_apply, slice1_apply, pay7_apply v0 v32 _ j hw, pay5_apply]

/-- The first row's payload at lane `j`, over any earlier values. -/
theorem pay1_apply (v31 : FVec Ideal S128x1024 .f32) (v37 : FVec Ideal S256x1024 .f32) (v41 : FVec Ideal S1x1024 .f32) (v55 : Vec Ideal S1 .f32)
    (j : Fin 1024) :
    k1_pay1 (F := Ideal) v31 v37 v41 v55 (ix2 (0 : Fin 1) j)
      = v41 (ix2 (0 : Fin 1) j) + (∑ l : Fin 128, v37 (ix2 (⟨0 * 128 + l.val, by omega⟩ : Fin 256) j) * v31 (ix2 l j)) + v55 (ix1 (0 : Fin 1)) := by
  have e1 := (colsum_apply (mulf (extractStridedSlice S128x1024 ![0, 0] v37 slices_S256x1024_o0_0_S128x1024) v31) j).trans
    (Finset.sum_congr rfl fun l _ => by rw [mulf_apply, slice0_apply])
  have e2 : extractAt ![0] v55 inpos_S1_p0 = v55 (ix1 (0 : Fin 1)) := congrArg v55 (funext fun a => by
    match a with
    | ⟨0, _⟩ => rfl)
  exact congrArg₂ (· + ·) (congrArg (v41 (ix2 (0 : Fin 1) j) + ·) e1) e2

/-- The second row's payload at lane `j`, over any earlier values. -/
theorem pay2_apply (v31 : FVec Ideal S128x1024 .f32) (v37 : FVec Ideal S256x1024 .f32) (v43 : FVec Ideal S128x1024 .f32) (v61 : Vec Ideal S1 .f32)
    (j : Fin 1024) :
    k1_pay2 (F := Ideal) v31 v37 v43 v61 (ix2 (0 : Fin 1) j)
      = (∑ l : Fin 128, v43 (ix2 l j)) + (∑ l : Fin 128, v37 (ix2 (⟨1 * 128 + l.val, by omega⟩ : Fin 256) j) * v31 (ix2 l j)) + v61 (ix1 (0 : Fin 1)) := by
  have e0 := colsum_apply v43 j
  have e1 := (colsum_apply (mulf (extractStridedSlice S128x1024 ![128, 0] v37 slices_S256x1024_o128_0_S128x1024) v31) j).trans
    (Finset.sum_congr rfl fun l _ => by rw [mulf_apply, slice1_apply])
  have e2 : extractAt ![0] v61 inpos_S1_p0 = v61 (ix1 (0 : Fin 1)) := congrArg v61 (funext fun a => by
    match a with
    | ⟨0, _⟩ => rfl)
  exact congrArg₂ (· + ·) (congrArg₂ (· + ·) e0 e1) e2

/-! The output block: two row stores, read at one element. -/

theorem offsets_zero : (![0, 0] : Fin 2 → Nat) = fun _ => 0 := funext fun a => by
  match a with
  | ⟨0, _⟩ => rfl
  | ⟨1, _⟩ => rfl

/-- The one-element load of the bias at offset 0 reads its entry 0 … -/
theorem ld_bias0 (x4 : Vec Ideal S2 .f32) : View.ld x4 r1_2 (ix1 (0 : Fin 1)) = x4 (ix1 (0 : Fin 2)) :=
  congrArg x4 (funext fun a => Fin.ext (by
    match a with
    | ⟨0, _⟩ => rfl))

/-- … and at offset 1 its entry 1. -/
theorem ld_bias1 (x4 : Vec Ideal S2 .f32) : View.ld x4 r1_4 (ix1 (0 : Fin 1)) = x4 (ix1 (1 : Fin 2)) :=
  congrArg x4 (funext fun a => Fin.ext (by
    match a with
    | ⟨0, _⟩ => rfl))

/-- Lane `j` of the row stored at row 1 sits at (1, j) of the block … -/
theorem emb_row1 (j : Fin 1024) : r1_5.emb (ix2 (0 : Fin 1) j) = ix2 (1 : Fin 2) j := funext fun a => Fin.ext (by
  match a with
  | ⟨0, _⟩ => rfl
  | ⟨1, _⟩ => show 0 + 1 * j.val = j.val; omega)

/-- … and of the row stored at row 0 at (0, j). -/
theorem emb_row0 (j : Fin 1024) : r1_3.emb (ix2 (0 : Fin 1) j) = ix2 (0 : Fin 2) j := funext fun a => Fin.ext (by
  match a with
  | ⟨0, _⟩ => rfl
  | ⟨1, _⟩ => show 0 + 1 * j.val = j.val; omega)

/-- Row 1 of the block is the last store's payload. -/
theorem canon_row1 (P1 P0 : Vec Ideal S1x1024 .f32) (j : Fin 1024) :
    View.canon [(⟨r1_5, P1⟩ : View.Piece (Elt Ideal) S2x1024 .f32), ⟨r1_3, P0⟩] (ix2 (1 : Fin 2) j) = P1 (ix2 (0 : Fin 1) j) := by
  rw [← emb_row1 j]
  exact View.canon_cons_emb r1_5 P1 _ (ix2 (0 : Fin 1) j)

/-- Row 0 of the block is outside the last store's rectangle, so it is the first store's payload. -/
theorem canon_row0 (P1 P0 : Vec Ideal S1x1024 .f32) (j : Fin 1024) :
    View.canon [(⟨r1_5, P1⟩ : View.Piece (Elt Ideal) S2x1024 .f32), ⟨r1_3, P0⟩] (ix2 (0 : Fin 2) j) = P0 (ix2 (0 : Fin 1) j) := by
  have hnm : ix2 (0 : Fin 2) j ∉ (⟨r1_5, P1⟩ : View.Piece (Elt Ideal) S2x1024 .f32).1.set := fun hm =>
    absurd ((Rect.mem_set_unit (s := S2x1024) (off := ![1, 0]) (size := S1x1024.size) (inb := inb_S2x1024_S1x1024_1_0) (i := ix2 (0 : Fin 2) j)).mp hm 0).1
      (show ¬ (1 ≤ 0) by decide)
  rw [View.canon_cons_of_not_mem (⟨r1_5, P1⟩ : View.Piece (Elt Ideal) S2x1024 .f32) [⟨r1_3, P0⟩] hnm, ← emb_row0 j]
  exact View.canon_cons_emb r1_3 P0 [] (ix2 (0 : Fin 1) j)

theorem out_row0 (x0 x1 : Vec Ideal S256x80 .bf16) (x2 x3 : Vec Ideal S1x1024 .i32) (x4 : Vec Ideal S2 .f32) (j : Fin 1024)
    (hs : (x2 (ix2 (0 : Fin 1) j)).toNat < 10000) (hd : (x3 (ix2 (0 : Fin 1) j)).toNat < 10000) :
    out1_5 (F := Ideal) x0 x1 x2 x3 x4 (ix2 (0 : Fin 2) j)
      = x0 (ix2 (⟨0 * 128 + (x2 (ix2 (0 : Fin 1) j)).toNat % 128, by omega⟩ : Fin 256) (⟨(x2 (ix2 (0 : Fin 1) j)).toNat / 128, by omega⟩ : Fin 80))
        + x1 (ix2 (⟨0 * 128 + (x3 (ix2 (0 : Fin 1) j)).toNat % 128, by omega⟩ : Fin 256) (⟨(x3 (ix2 (0 : Fin 1) j)).toNat / 128, by omega⟩ : Fin 80))
        + x4 (ix1 (0 : Fin 2)) := by
  unfold out1_5
  simp only [View.ld_unit_zero (S := S1x1024) offsets_zero, View.ld_unit_zero (S := S256x80) offsets_zero]
  refine (canon_row0 _ _ j).trans ?_
  have e : (∑ l : Fin 128, k1_pay8 (F := Ideal) x3 x1 (ix2 (⟨0 * 128 + l.val, by omega⟩ : Fin 256) j) * k1_pay6 (F := Ideal) x3 (ix2 l j))
      = x1 (ix2 (⟨0 * 128 + (x3 (ix2 (0 : Fin 1) j)).toNat % 128, by omega⟩ : Fin 256) (⟨(x3 (ix2 (0 : Fin 1) j)).toNat / 128, by omega⟩ : Fin 80)) :=
    gather_sum 0 (by norm_num) x1 _ hd _ fun l => by rw [pay8_apply x3 x1 _ j hd, pay6_apply]
  rw [pay1_apply, pay9_apply x2 x0 j hs, ld_bias0, e]

theorem out_row1 (x0 x1 : Vec Ideal S256x80 .bf16) (x2 x3 : Vec Ideal S1x1024 .i32) (x4 : Vec Ideal S2 .f32) (j : Fin 1024)
    (hs : (x2 (ix2 (0 : Fin 1) j)).toNat < 10000) (hd : (x3 (ix2 (0 : Fin 1) j)).toNat < 10000) :
    out1_5 (F := Ideal) x0 x1 x2 x3 x4 (ix2 (1 : Fin 2) j)
      = x0 (ix2 (⟨1 * 128 + (x2 (ix2 (0 : Fin 1) j)).toNat % 128, by omega⟩ : Fin 256) (⟨(x2 (ix2 (0 : Fin 1) j)).toNat / 128, by omega⟩ : Fin 80))
        + x1 (ix2 (⟨1 * 128 + (x3 (ix2 (0 : Fin 1) j)).toNat % 128, by omega⟩ : Fin 256) (⟨(x3 (ix2 (0 : Fin 1) j)).toNat / 128, by omega⟩ : Fin 80))
        + x4 (ix1 (1 : Fin 2)) := by
  unfold out1_5
  simp only [View.ld_unit_zero (S := S1x1024) offsets_zero, View.ld_unit_zero (S := S256x80) offsets_zero]
  refine (canon_row1 _ _ j).trans ?_
  have e : (∑ l : Fin 128, k1_pay8 (F := Ideal) x3 x1 (ix2 (⟨1 * 128 + l.val, by omega⟩ : Fin 256) j) * k1_pay6 (F := Ideal) x3 (ix2 l j))
      = x1 (ix2 (⟨1 * 128 + (x3 (ix2 (0 : Fin 1) j)).toNat % 128, by omega⟩ : Fin 256) (⟨(x3 (ix2 (0 : Fin 1) j)).toNat / 128, by omega⟩ : Fin 80)) :=
    gather_sum 1 (by norm_num) x1 _ hd _ fun l => by rw [pay8_apply x3 x1 _ j hd, pay6_apply]
  rw [pay2_apply, pay10_sum x2 x0 j hs, ld_bias1, e]

/-- THE OUTPUT BLOCK AT ONE ELEMENT: for class `o` and lane `j` whose two index words are node ids below 10000, the two
    slabs read at the row `o·128 + (word mod 128)` and the column `word / 128`, plus the bias entry `o`. -/
theorem out_apply (x0 x1 : Vec Ideal S256x80 .bf16) (x2 x3 : Vec Ideal S1x1024 .i32) (x4 : Vec Ideal S2 .f32) (o : Fin 2) (j : Fin 1024)
    (hs : (x2 (ix2 (0 : Fin 1) j)).toNat < 10000) (hd : (x3 (ix2 (0 : Fin 1) j)).toNat < 10000) :
    out1_5 (F := Ideal) x0 x1 x2 x3 x4 (ix2 o j)
      = x0 (ix2 (⟨o.val * 128 + (x2 (ix2 (0 : Fin 1) j)).toNat % 128, by omega⟩ : Fin 256) (⟨(x2 (ix2 (0 : Fin 1) j)).toNat / 128, by omega⟩ : Fin 80))
        + x1 (ix2 (⟨o.val * 128 + (x3 (ix2 (0 : Fin 1) j)).toNat % 128, by omega⟩ : Fin 256) (⟨(x3 (ix2 (0 : Fin 1) j)).toNat / 128, by omega⟩ : Fin 80))
        + x4 (ix1 o) :=
  match o with
  | ⟨0, _⟩ => out_row0 x0 x1 x2 x3 x4 j hs hd
  | ⟨1, _⟩ => out_row1 x0 x1 x2 x3 x4 j hs hd

end Cert.KernelIdeal.GatherPoint
end
-- ==== Proof.lean ====
/-
  The certificate's five claims.

  The kernel scores every edge `e` of a graph against two classes: with `u = src e`, `v = dst e`,
  `score[e, o] = (∑ d, x[u, d] · W[o, d]) + (∑ d, x[v, d] · W[o, 128 + d]) + b[o]`.
  It does so in two calls. The first projects the whole node table once: `P = x · W[:, :128]ᵀ`, `Q = x · W[:, 128:]ᵀ`.
  Between the calls each table is packed so that node `hi·128 + lo`, class `o` sits at row `o·128 + lo`, column `hi`.
  The second call fetches a node's entry without a gather: a one-hot column over `hi = id / 128` times the packed table
  picks the 256 candidates of that `hi`, and a one-hot over `lo = id % 128` picks one of each class's 128. A one-hot sum
  has one non-zero term and, on the extended reals, `x · 0 = 0` for every `x`, so the fetched entry is exactly the table's,
  for every node id below 10000 (the precondition's range on `src` and `dst`); nothing needs the inputs finite.
  The reference gathers the two rows of `x` and multiplies each by its half of `W`; under the same range its negative-index
  wrap and its clamp are the identity. Both results are the one function `Cert.EdgeScore.score` of the arguments.

  The frames of the two kernel programs are the generated ones; the reference's frame is its generated run with the result
  dropped; the idealization rewrote nothing, so `preserves` is trivial.
-/
import proofs.«429145_j9869834846314_3_alg».proof.Defs
import proofs.«429145_j9869834846314_3_alg».proof.Proof.Gen.Kernel
import proofs.«429145_j9869834846314_3_alg».proof.Proof.Gen.Kernel.Frame
import proofs.«429145_j9869834846314_3_alg».proof.Proof.Gen.KernelIdeal
import proofs.«429145_j9869834846314_3_alg».proof.Proof.Gen.KernelIdeal.Frame
import proofs.«429145_j9869834846314_3_alg».proof.Proof.Gen.ReferenceIdeal
import proofs.«429145_j9869834846314_3_alg».proof.Proof.Gen.ReferenceIdeal.Run
import proofs.«429145_j9869834846314_3_alg».proof.Proof.Gen.Pre_finite_inputs
import proofs.«429145_j9869834846314_3_alg».proof.Proof.PreRange
import proofs.«429145_j9869834846314_3_alg».proof.Proof.RefValue
import proofs.«429145_j9869834846314_3_alg».proof.Proof.KernelRun
import proofs.«429145_j9869834846314_3_alg».proof.Proof.KernelValue
import proofs.«429145_j9869834846314_3_alg».proof.Proof.Region1Value
import proofs.«429145_j9869834846314_3_alg».proof.Proof.GatherPoint
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The gather body's arithmetic at one element, in the reduced-coordinate form the array function is stated with: for an
    id below 10000 the reductions change nothing. -/
theorem pointValue : Cert.KernelIdeal.Region1.PointValue := fun x0 x1 x2 x3 x4 o j hs hd => by
  rw [Cert.KernelIdeal.GatherPoint.out_apply x0 x1 x2 x3 x4 o j hs hd]
  unfold Cert.KernelIdeal.Region1.pick
  have a1 : (o.val * 128 + (x2 (ix2 (0 : Fin 1) j)).toNat % 128) % 256 = o.val * 128 + (x2 (ix2 (0 : Fin 1) j)).toNat % 128 :=
    Nat.mod_eq_of_lt (by omega)
  have a2 : ((x2 (ix2 (0 : Fin 1) j)).toNat / 128) % 80 = (x2 (ix2 (0 : Fin 1) j)).toNat / 128 := Nat.mod_eq_of_lt (by omega)
  have b1 : (o.val * 128 + (x3 (ix2 (0 : Fin 1) j)).toNat % 128) % 256 = o.val * 128 + (x3 (ix2 (0 : Fin 1) j)).toNat % 128 :=
    Nat.mod_eq_of_lt (by omega)
  have b2 : ((x3 (ix2 (0 : Fin 1) j)).toNat / 128) % 80 = (x3 (ix2 (0 : Fin 1) j)).toNat / 128 := Nat.mod_eq_of_lt (by omega)
  simp only [a1, a2, b1, b2]

/-- Both idealized programs end with the score function of the (agreeing) arguments in their result arrays. -/
theorem algebraic : Cert.algebraic_KernelIdeal_ReferenceIdeal := by
  intro m ρ m' ρ' hpre hagree
  have hs : ∀ (c : Dev Cert.KernelIdeal.nD) e, (m ((c.tc : Thread Cert.KernelIdeal.nD Cert.KernelIdeal.τ).loc Cert.KernelIdeal.main_arg1) e).toNat < 10000 :=
    fun c e => Cert.EdgeScore.src_lt _ _ _ _ _ (hpre c) e
  have hd : ∀ (c : Dev Cert.KernelIdeal.nD) e, (m ((c.tc : Thread Cert.KernelIdeal.nD Cert.KernelIdeal.τ).loc Cert.KernelIdeal.main_arg2) e).toNat < 10000 :=
    fun c e => Cert.EdgeScore.dst_lt _ _ _ _ _ (hpre c) e
  refine ⟨fun c => Cert.EdgeScore.score
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩) (Cert.KernelIdeal.Run.run_named m ρ)
    exact Cert.KernelIdeal.KernelValue.result_eq m ρ c
      (Cert.KernelIdeal.Region1.final5 (Cert.KernelIdeal.Gen.V7 m ρ) pointValue c
        (Cert.KernelIdeal.KernelValue.ids_src_lt m ρ c (hs c)) (Cert.KernelIdeal.KernelValue.ids_dst_lt m ρ c (hd c)))
      (hs c) (hd c)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v21_eq _ _ _ _ _).trans ?_
    rw [(hagree c).1, (hagree c).2.1, (hagree c).2.2.1, (hagree c).2.2.2.1, (hagree c).2.2.2.2]
    exact Cert.ReferenceIdeal.RefValue.ref_is_score _ _ _ _ _ (hs c) (hd c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
